-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) (main_arg1 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S16384x4096 : Shape := ⟨2, ![16384, 4096]⟩
abbrev S1x4096 : Shape := ⟨2, ![1, 4096]⟩
abbrev S1024x512 : Shape := ⟨2, ![1024, 512]⟩
abbrev S1x512 : Shape := ⟨2, ![1, 512]⟩
abbrev S512 : Shape := ⟨1, ![512]⟩
abbrev S4096 : Shape := ⟨1, ![4096]⟩
abbrev S_ : Shape := ⟨0, ![]⟩

abbrev nBuf : Space → Nat
  | .hbm => 70
  | .vmem => 19
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S4096, .f32⟩
  | .hbm, ⟨40, _⟩ => ⟨S4096, .f32⟩
  | .hbm, ⟨41, _⟩ => ⟨S4096, .f32⟩
  | .hbm, ⟨42, _⟩ => ⟨S4096, .f32⟩
  | .hbm, ⟨43, _⟩ => ⟨S4096, .i1⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S4096, .f32⟩
  | .hbm, ⟨62, _⟩ => ⟨S4096, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_cst_14 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v43 : BitVec 1 := Scalar.cmpi .eq arg1 c15_i32
  let v44 : BitVec 32 := Scalar.extui v43
  let c0_i32_28 : BitVec 32 := 0#32
  let v45 : BitVec 1 := Scalar.cmpi .ne v44 c0_i32_28
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x512_S1024x512_0_0 : ∀ a, (![0, 0] : Fin 2 → Nat) a + S1024x512.size a ≤ S1024x512.size a
  h_S1024x512 : 0 < S1024x512.numel
  reduces_S1024x512_S512 : S1024x512.Reduces [0] S512
  shapeCasts_S512_S1x512 : S512.ShapeCasts S1x512
  shapeCasts_S1x4096_S4096 : S1x4096.ShapeCasts S4096
  bcast_S_S4096 : S_.BroadcastsInDim S4096 (![] : Fin 0 → Fin S4096.rank)
  reducesTo_S4096_S_d0 : S4096.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x4096.size a
  hwx0_0 : ∀ i : grid0.Coords, EltTy.bits .f32 = 32 ∨ (Rect.block (s := S16384x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x4096.size a
  hwx0_1 : ∀ i : grid0.Coords, EltTy.bits .f32 = 32 ∨ (Rect.block (s := S16384x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .f32 = 32 ∨ (Rect.block (s := S1x4096) S1x512.size (cc0_transform_6 i) (hinb0_6 i)).WholeWords (EltTy.packing .f32)

variable [Facts₀]

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_4) S1x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun i => !(k0_cond2 i == 1#1) | 3 => fun i => !(k0_cond2 i == 1#1) | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16384x4096 : Shape := ⟨2, ![16384, 4096]⟩
abbrev S_ : Shape := ⟨0, ![]⟩
abbrev S4096 : Shape := ⟨1, ![4096]⟩
abbrev S1x4096 : Shape := ⟨2, ![1, 4096]⟩

abbrev nBuf : Space → Nat
  | .hbm => 76
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S1x4096, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S16384x4096, .f32⟩
  | .hbm, ⟨26, _⟩ => ⟨S_, .f32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S16384x4096, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S4096, .f32⟩
  | .hbm, ⟨40, _⟩ => ⟨S4096, .i1⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S16384x4096, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S16384x4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S16384x4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S4096, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_9 : Ref sig .tc := ⟨.hbm, 41, rfl⟩
abbrev main_v29 : Ref sig .tc := ⟨.hbm, 42, rfl⟩
abbrev main_v30 : Ref sig .tc := ⟨.hbm, 43, rfl⟩
abbrev main_cst_10 : Ref sig .tc := ⟨.hbm, 44, rfl⟩
abbrev main_v31 : Ref sig .tc := ⟨.hbm, 45, rfl⟩
abbrev main_cst_11 : Ref sig .tc := ⟨.hbm, 46, rfl⟩
abbrev main_v32 : Ref sig .tc := ⟨.hbm, 47, rfl⟩
abbrev main_cst_12 : Ref sig .tc := ⟨.hbm, 48, rfl⟩
abbrev main_v33 : Ref sig .tc := ⟨.hbm, 49, rfl⟩
abbrev main_v34 : Ref sig .tc := ⟨.hbm, 50, rfl⟩
abbrev main_cst_13 : Ref sig .tc := ⟨.hbm, 51, rfl⟩
abbrev main_v35 : Ref sig .tc := ⟨.hbm, 52, rfl⟩
abbrev main_v36 : Ref sig .tc := ⟨.hbm, 53, rfl⟩
abbrev main_cst_14 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_15 : Ref sig .tc := ⟨.hbm, 58, rfl⟩
abbrev main_v40 : Ref sig .tc := ⟨.hbm, 59, rfl⟩
abbrev main_v41 : Ref sig .tc := ⟨.hbm, 60, rfl⟩
abbrev main_cst_16 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_17 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_18 : Ref sig .tc := ⟨.hbm, 69, rfl⟩
abbrev main_v48 : Ref sig .tc := ⟨.hbm, 70, rfl⟩
abbrev main_cst_19 : Ref sig .tc := ⟨.hbm, 71, rfl⟩
abbrev main_v49 : Ref sig .tc := ⟨.hbm, 72, rfl⟩
abbrev main_cst_20 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]

class Facts₀ : Prop where
  reducesTo_S16384x4096_S4096_d0 : S16384x4096.ReducesTo [0] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  reducesTo_S4096_S_d0 : S4096.ReducesTo [0] S_

variable [Facts₀]

class Facts : Prop extends Facts₀ where

variable [Facts]
-- ==== Proof.Pieces.lean ====
/-
  What one run of the kernel body leaves in its accumulators and outputs.

  The body keeps five row vectors of 512 entries (running column sums of p, t, p², t², p·t over the rows seen so far).
  At a point with row-block index 0 it first stores zeros, then adds the block's column sums; at the other points it
  adds them to what the point before left; at the last row block it also copies the five accumulators to the outputs.
  Each lemma below reads one buffer's final contents as the body's arithmetic of the input blocks and the contents the
  body started from.
-/
import proofs.«175954_j27161373180458_1_alg».proof.Proof.FrameKernelIdeal
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen Cert.KernelIdeal.GenP

variable {F : FTy → Type} [FloatOps F]

theorem hz : (![0, 0] : Fin 2 → Nat) = fun _ => 0 := funext fun a => by fin_cases a <;> rfl

variable (c : Dev nD) (i : grid0.Coords)
  (arg2 : Memref sig .tc .vmem S1024x512 .f32) (harg2 : arg2.IsWhole)
  (arg3 : Memref sig .tc .vmem S1024x512 .f32) (harg3 : arg3.IsWhole)
  (arg4 : Memref sig .tc .vmem S1x512 .f32) (harg4 : arg4.IsWhole)
  (arg5 : Memref sig .tc .vmem S1x512 .f32) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S1x512 .f32) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S1x512 .f32) (harg12 : arg12.IsWhole)
  (arg13 : Memref sig .tc .vmem S1x512 .f32) (harg13 : arg13.IsWhole)

/-- A term applied to the body's point and its twelve buffers. -/
local notation:max f:max "⟪at⟫" =>
  f c i arg2 harg2 arg3 harg3 arg4 harg4 arg5 harg5 arg6 harg6 arg7 harg7 arg8 harg8 arg9 harg9 arg10 harg10 arg11 harg11 arg12 harg12 arg13 harg13

/-! ## First row block: zeros, then the block's column sums -/

section First
variable (hc0 : cond0_0 i) (hc1 : ¬cond0_1 i) (x0 x1 : Vec F S1024x512 .f32)

/-- Running sum of p: zeros plus the block's column sums of p. -/
theorem sumP_first : sout0_A_0⟪at⟫ hc0 hc1 x0 x1 = k0_pay8 x0 (k0_pay3 (F := F)) := by
  unfold sout0_A_0
  rw [View.read_writes_eq_canon _ _ _ (scover0_A_0⟪at⟫ hc0 hc1 x0 x1)]
  unfold kernelRun0_A
  dsimp only
  sl_unfold_words
  rw [View.canon_cons_unit_zero (S := S1x512) hz, View.readCov_unit_zero (S := S1x512) _ hz]
  simp only [View.readAt_eq_ld, harg2.read_unread, harg3.read_unread, harg9.read_unread, harg10.read_unread,
    harg11.read_unread, harg12.read_unread, harg13.read_unread, View.ld_unit_zero (S := S1024x512) hz,
    View.ld_unit_zero (S := S1x512) hz, View.readCov_unit_zero (S := S1x512) _ hz]

/-- Running sum of t. -/
theorem sumT_first : sout0_A_1⟪at⟫ hc0 hc1 x0 x1 = k0_pay9 x1 (k0_pay4 (F := F)) := by
  unfold sout0_A_1
  rw [View.read_writes_eq_canon _ _ _ (scover0_A_1⟪at⟫ hc0 hc1 x0 x1)]
  unfold kernelRun0_A
  dsimp only
  sl_unfold_words
  rw [View.canon_cons_unit_zero (S := S1x512) hz, View.readCov_unit_zero (S := S1x512) _ hz]
  simp only [View.readAt_eq_ld, harg2.read_unread, harg3.read_unread, harg9.read_unread, harg10.read_unread,
    harg11.read_unread, harg12.read_unread, harg13.read_unread, View.ld_unit_zero (S := S1024x512) hz,
    View.ld_unit_zero (S := S1x512) hz, View.readCov_unit_zero (S := S1x512) _ hz]

/-- Running sum of p². -/
theorem sumPP_first : sout0_A_2⟪at⟫ hc0 hc1 x0 x1 = k0_pay10 x0 (k0_pay5 (F := F)) := by
  unfold sout0_A_2
  rw [View.read_writes_eq_canon _ _ _ (scover0_A_2⟪at⟫ hc0 hc1 x0 x1)]
  unfold kernelRun0_A
  dsimp only
  sl_unfold_words
  rw [View.canon_cons_unit_zero (S := S1x512) hz, View.readCov_unit_zero (S := S1x512) _ hz]
  simp only [View.readAt_eq_ld, harg2.read_unread, harg3.read_unread, harg9.read_unread, harg10.read_unread,
    harg11.read_unread, harg12.read_unread, harg13.read_unread, View.ld_unit_zero (S := S1024x512) hz,
    View.ld_unit_zero (S := S1x512) hz, View.readCov_unit_zero (S := S1x512) _ hz]

/-- Running sum of t². -/
theorem sumTT_first : sout0_A_3⟪at⟫ hc0 hc1 x0 x1 = k0_pay1 (k0_pay6 (F := F)) (k0_pay11 x1) := by
  unfold sout0_A_3
  rw [View.read_writes_eq_canon _ _ _ (scover0_A_3⟪at⟫ hc0 hc1 x0 x1)]
  unfold kernelRun0_A
  dsimp only
  sl_unfold_words
  rw [View.canon_cons_unit_zero (S := S1x512) hz, View.readCov_unit_zero (S := S1x512) _ hz]
  simp only [View.readAt_eq_ld, harg2.read_unread, harg3.read_unread, harg9.read_unread, harg10.read_unread,
    harg11.read_unread, harg12.read_unread, harg13.read_unread, View.ld_unit_zero (S := S1024x512) hz,
    View.ld_unit_zero (S := S1x512) hz, View.readCov_unit_zero (S := S1x512) _ hz]

/-- Running sum of p·t. -/
theorem sumPT_first : sout0_A_4⟪at⟫ hc0 hc1 x0 x1 = k0_pay2 x0 x1 (k0_pay7 (F := F)) := by
  unfold sout0_A_4
  rw [View.read_writes_eq_canon _ _ _ (scover0_A_4⟪at⟫ hc0 hc1 x0 x1)]
  unfold kernelRun0_A
  dsimp only
  sl_unfold_words
  rw [View.canon_cons_unit_zero (S := S1x512) hz, View.readCov_unit_zero (S := S1x512) _ hz]
  simp only [View.readAt_eq_ld, harg2.read_unread, harg3.read_unread, harg9.read_unread, harg10.read_unread,
    harg11.read_unread, harg12.read_unread, harg13.read_unread, View.ld_unit_zero (S := S1024x512) hz,
    View.ld_unit_zero (S := S1x512) hz, View.readCov_unit_zero (S := S1x512) _ hz]

end First

/-! ## A middle row block: what was there plus the block's column sums -/

section Middle
variable (hc0 : ¬cond0_0 i) (hc1 : ¬cond0_1 i) (x0 x1 : Vec F S1024x512 .f32) (xs0 xs1 xs2 xs3 xs4 : Vec F S1x512 .f32)

theorem sumP_mid : sout0_B_0⟪at⟫ hc0 hc1 x0 x1 xs0 xs1 xs2 xs3 xs4 = k0_pay8 x0 xs0 := by
  unfold sout0_B_0
  rw [View.read_writes_eq_canon _ _ _ (scover0_B_0⟪at⟫ hc0 hc1 x0 x1 xs0 xs1 xs2 xs3 xs4)]
  unfold kernelRun0_B
  dsimp only
  sl_unfold_words
  rw [View.canon_unit_zero hz]
  simp only [View.readAt_eq_ld, harg2.read_unread, harg3.read_unread, harg9.read_unread, harg10.read_unread,
    harg11.read_unread, harg12.read_unread, harg13.read_unread, View.ld_unit_zero (S := S1024x512) hz,
    View.ld_unit_zero (S := S1x512) hz, View.readCov_unit_zero (S := S1x512) _ hz]

theorem sumT_mid : sout0_B_1⟪at⟫ hc0 hc1 x0 x1 xs0 xs1 xs2 xs3 xs4 = k0_pay9 x1 xs1 := by
  unfold sout0_B_1
  rw [View.read_writes_eq_canon _ _ _ (scover0_B_1⟪at⟫ hc0 hc1 x0 x1 xs0 xs1 xs2 xs3 xs4)]
  unfold kernelRun0_B
  dsimp only
  sl_unfold_words
  rw [View.canon_unit_zero hz]
  simp only [View.readAt_eq_ld, harg2.read_unread, harg3.read_unread, harg9.read_unread, harg10.read_unread,
    harg11.read_unread, harg12.read_unread, harg13.read_unread, View.ld_unit_zero (S := S1024x512) hz,
    View.ld_unit_zero (S := S1x512) hz, View.readCov_unit_zero (S := S1x512) _ hz]

theorem sumPP_mid : sout0_B_2⟪at⟫ hc0 hc1 x0 x1 xs0 xs1 xs2 xs3 xs4 = k0_pay10 x0 xs2 := by
  unfold sout0_B_2
  rw [View.read_writes_eq_canon _ _ _ (scover0_B_2⟪at⟫ hc0 hc1 x0 x1 xs0 xs1 xs2 xs3 xs4)]
  unfold kernelRun0_B
  dsimp only
  sl_unfold_words
  rw [View.canon_unit_zero hz]
  simp only [View.readAt_eq_ld, harg2.read_unread, harg3.read_unread, harg9.read_unread, harg10.read_unread,
    harg11.read_unread, harg12.read_unread, harg13.read_unread, View.ld_unit_zero (S := S1024x512) hz,
    View.ld_unit_zero (S := S1x512) hz, View.readCov_unit_zero (S := S1x512) _ hz]

theorem sumTT_mid : sout0_B_3⟪at⟫ hc0 hc1 x0 x1 xs0 xs1 xs2 xs3 xs4 = k0_pay1 xs3 (k0_pay11 x1) := by
  unfold sout0_B_3
  rw [View.read_writes_eq_canon _ _ _ (scover0_B_3⟪at⟫ hc0 hc1 x0 x1 xs0 xs1 xs2 xs3 xs4)]
  unfold kernelRun0_B
  dsimp only
  sl_unfold_words
  rw [View.canon_unit_zero hz]
  simp only [View.readAt_eq_ld, harg2.read_unread, harg3.read_unread, harg9.read_unread, harg10.read_unread,
    harg11.read_unread, harg12.read_unread, harg13.read_unread, View.ld_unit_zero (S := S1024x512) hz,
    View.ld_unit_zero (S := S1x512) hz, View.readCov_unit_zero (S := S1x512) _ hz]

theorem sumPT_mid : sout0_B_4⟪at⟫ hc0 hc1 x0 x1 xs0 xs1 xs2 xs3 xs4 = k0_pay2 x0 x1 xs4 := by
  unfold sout0_B_4
  rw [View.read_writes_eq_canon _ _ _ (scover0_B_4⟪at⟫ hc0 hc1 x0 x1 xs0 xs1 xs2 xs3 xs4)]
  unfold kernelRun0_B
  dsimp only
  sl_unfold_words
  rw [View.canon_unit_zero hz]
  simp only [View.readAt_eq_ld, harg2.read_unread, harg3.read_unread, harg9.read_unread, harg10.read_unread,
    harg11.read_unread, harg12.read_unread, harg13.read_unread, View.ld_unit_zero (S := S1024x512) hz,
    View.ld_unit_zero (S := S1x512) hz, View.readCov_unit_zero (S := S1x512) _ hz]

end Middle

/-! ## The last row block: the same update, and each accumulator copied to its output -/

section Last
variable (hc0 : ¬cond0_0 i) (hc1 : cond0_1 i) (x0 x1 : Vec F S1024x512 .f32) (xs0 xs1 xs2 xs3 xs4 : Vec F S1x512 .f32)

theorem sumP_last : sout0_C_0⟪at⟫ hc0 hc1 x0 x1 xs0 xs1 xs2 xs3 xs4 = k0_pay8 x0 xs0 := by
  unfold sout0_C_0
  rw [View.read_writes_eq_canon _ _ _ (scover0_C_0⟪at⟫ hc0 hc1 x0 x1 xs0 xs1 xs2 xs3 xs4)]
  unfold kernelRun0_C
  dsimp only
  sl_unfold_words
  rw [View.canon_unit_zero hz]
  simp only [View.readAt_eq_ld, harg2.read_unread, harg3.read_unread, harg9.read_unread, harg10.read_unread,
    harg11.read_unread, harg12.read_unread, harg13.read_unread, View.ld_unit_zero (S := S1024x512) hz,
    View.ld_unit_zero (S := S1x512) hz, View.readCov_unit_zero (S := S1x512) _ hz]

theorem sumT_last : sout0_C_1⟪at⟫ hc0 hc1 x0 x1 xs0 xs1 xs2 xs3 xs4 = k0_pay9 x1 xs1 := by
  unfold sout0_C_1
  rw [View.read_writes_eq_canon _ _ _ (scover0_C_1⟪at⟫ hc0 hc1 x0 x1 xs0 xs1 xs2 xs3 xs4)]
  unfold kernelRun0_C
  dsimp only
  sl_unfold_words
  rw [View.canon_unit_zero hz]
  simp only [View.readAt_eq_ld, harg2.read_unread, harg3.read_unread, harg9.read_unread, harg10.read_unread,
    harg11.read_unread, harg12.read_unread, harg13.read_unread, View.ld_unit_zero (S := S1024x512) hz,
    View.ld_unit_zero (S := S1x512) hz, View.readCov_unit_zero (S := S1x512) _ hz]

theorem sumPP_last : sout0_C_2⟪at⟫ hc0 hc1 x0 x1 xs0 xs1 xs2 xs3 xs4 = k0_pay10 x0 xs2 := by
  unfold sout0_C_2
  rw [View.read_writes_eq_canon _ _ _ (scover0_C_2⟪at⟫ hc0 hc1 x0 x1 xs0 xs1 xs2 xs3 xs4)]
  unfold kernelRun0_C
  dsimp only
  sl_unfold_words
  rw [View.canon_unit_zero hz]
  simp only [View.readAt_eq_ld, harg2.read_unread, harg3.read_unread, harg9.read_unread, harg10.read_unread,
    harg11.read_unread, harg12.read_unread, harg13.read_unread, View.ld_unit_zero (S := S1024x512) hz,
    View.ld_unit_zero (S := S1x512) hz, View.readCov_unit_zero (S := S1x512) _ hz]

theorem sumTT_last : sout0_C_3⟪at⟫ hc0 hc1 x0 x1 xs0 xs1 xs2 xs3 xs4 = k0_pay1 xs3 (k0_pay11 x1) := by
  unfold sout0_C_3
  rw [View.read_writes_eq_canon _ _ _ (scover0_C_3⟪at⟫ hc0 hc1 x0 x1 xs0 xs1 xs2 xs3 xs4)]
  unfold kernelRun0_C
  dsimp only
  sl_unfold_words
  rw [View.canon_unit_zero hz]
  simp only [View.readAt_eq_ld, harg2.read_unread, harg3.read_unread, harg9.read_unread, harg10.read_unread,
    harg11.read_unread, harg12.read_unread, harg13.read_unread, View.ld_unit_zero (S := S1024x512) hz,
    View.ld_unit_zero (S := S1x512) hz, View.readCov_unit_zero (S := S1x512) _ hz]

theorem sumPT_last : sout0_C_4⟪at⟫ hc0 hc1 x0 x1 xs0 xs1 xs2 xs3 xs4 = k0_pay2 x0 x1 xs4 := by
  unfold sout0_C_4
  rw [View.read_writes_eq_canon _ _ _ (scover0_C_4⟪at⟫ hc0 hc1 x0 x1 xs0 xs1 xs2 xs3 xs4)]
  unfold kernelRun0_C
  dsimp only
  sl_unfold_words
  rw [View.canon_unit_zero hz]
  simp only [View.readAt_eq_ld, harg2.read_unread, harg3.read_unread, harg9.read_unread, harg10.read_unread,
    harg11.read_unread, harg12.read_unread, harg13.read_unread, View.ld_unit_zero (S := S1024x512) hz,
    View.ld_unit_zero (S := S1x512) hz, View.readCov_unit_zero (S := S1x512) _ hz]

/-- The output of ∑p: the updated accumulator. -/
theorem outP_last : out0_C_2⟪at⟫ hc0 hc1 x0 x1 xs0 xs1 xs2 xs3 xs4 = k0_pay8 x0 xs0 := by
  unfold out0_C_2
  rw [View.read_writes_eq_canon _ _ _ (cover0_C_2⟪at⟫ hc0 hc1 x0 x1 xs0 xs1 xs2 xs3 xs4)]
  unfold kernelRun0_C
  dsimp only
  sl_unfold_words
  rw [View.canon_unit_zero hz]
  simp only [View.readAt_eq_ld, harg2.read_unread, harg3.read_unread, harg9.read_unread, harg10.read_unread,
    harg11.read_unread, harg12.read_unread, harg13.read_unread, View.ld_unit_zero (S := S1024x512) hz,
    View.ld_unit_zero (S := S1x512) hz, View.readCov_unit_zero (S := S1x512) _ hz]

theorem outT_last : out0_C_3⟪at⟫ hc0 hc1 x0 x1 xs0 xs1 xs2 xs3 xs4 = k0_pay9 x1 xs1 := by
  unfold out0_C_3
  rw [View.read_writes_eq_canon _ _ _ (cover0_C_3⟪at⟫ hc0 hc1 x0 x1 xs0 xs1 xs2 xs3 xs4)]
  unfold kernelRun0_C
  dsimp only
  sl_unfold_words
  rw [View.canon_unit_zero hz]
  simp only [View.readAt_eq_ld, harg2.read_unread, harg3.read_unread, harg9.read_unread, harg10.read_unread,
    harg11.read_unread, harg12.read_unread, harg13.read_unread, View.ld_unit_zero (S := S1024x512) hz,
    View.ld_unit_zero (S := S1x512) hz, View.readCov_unit_zero (S := S1x512) _ hz]

theorem outPP_last : out0_C_4⟪at⟫ hc0 hc1 x0 x1 xs0 xs1 xs2 xs3 xs4 = k0_pay10 x0 xs2 := by
  unfold out0_C_4
  rw [View.read_writes_eq_canon _ _ _ (cover0_C_4⟪at⟫ hc0 hc1 x0 x1 xs0 xs1 xs2 xs3 xs4)]
  unfold kernelRun0_C
  dsimp only
  sl_unfold_words
  rw [View.canon_unit_zero hz]
  simp only [View.readAt_eq_ld, harg2.read_unread, harg3.read_unread, harg9.read_unread, harg10.read_unread,
    harg11.read_unread, harg12.read_unread, harg13.read_unread, View.ld_unit_zero (S := S1024x512) hz,
    View.ld_unit_zero (S := S1x512) hz, View.readCov_unit_zero (S := S1x512) _ hz]

theorem outTT_last : out0_C_5⟪at⟫ hc0 hc1 x0 x1 xs0 xs1 xs2 xs3 xs4 = k0_pay1 xs3 (k0_pay11 x1) := by
  unfold out0_C_5
  rw [View.read_writes_eq_canon _ _ _ (cover0_C_5⟪at⟫ hc0 hc1 x0 x1 xs0 xs1 xs2 xs3 xs4)]
  unfold kernelRun0_C
  dsimp only
  sl_unfold_words
  rw [View.canon_unit_zero hz]
  simp only [View.readAt_eq_ld, harg2.read_unread, harg3.read_unread, harg9.read_unread, harg10.read_unread,
    harg11.read_unread, harg12.read_unread, harg13.read_unread, View.ld_unit_zero (S := S1024x512) hz,
    View.ld_unit_zero (S := S1x512) hz, View.readCov_unit_zero (S := S1x512) _ hz]

theorem outPT_last : out0_C_6⟪at⟫ hc0 hc1 x0 x1 xs0 xs1 xs2 xs3 xs4 = k0_pay2 x0 x1 xs4 := by
  unfold out0_C_6
  rw [View.read_writes_eq_canon _ _ _ (cover0_C_6⟪at⟫ hc0 hc1 x0 x1 xs0 xs1 xs2 xs3 xs4)]
  unfold kernelRun0_C
  dsimp only
  sl_unfold_words
  rw [View.canon_unit_zero hz]
  simp only [View.readAt_eq_ld, harg2.read_unread, harg3.read_unread, harg9.read_unread, harg10.read_unread,
    harg11.read_unread, harg12.read_unread, harg13.read_unread, View.ld_unit_zero (S := S1024x512) hz,
    View.ld_unit_zero (S := S1x512) hz, View.readCov_unit_zero (S := S1x512) _ hz]

end Last

end Cert.KernelIdeal.Pieces

end
-- ==== Proof.PayloadSums.lean ====
/-
  The body's arithmetic at one entry.

  Each of the five accumulator updates is: the old accumulator entry, plus the sum down the 1024 rows of the block —
  of p, of t, of p·p, of t·t, of p·t — in that column. The resets store the zero vector. (The row-reduced vector has 512
  entries; it is viewed as a 1 × 512 row before the addition, which does not move an entry.)
-/
import proofs.«175954_j27161373180458_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-- A block's sum down its rows, viewed as a row, at column `q`: the sum over the 1024 rows of the entry in that column. -/
theorem rowSum_apply (x : FVec Ideal S1024x512 .f32) (hφ : FKind.Formats .f32)
    (hacc : (0x00000000#32 : BitVec 32) = FKind.add.neutral .f32 hφ) (u : Fin 1) (q : Fin 512) :
    shapeCast S1x512 (multiReduction .add [0] S512 x 0x00000000#32 Facts₀.reduces_S1024x512_S512 hφ hacc)
        Facts₀.shapeCasts_S512_S1x512 (ix2 u q)
      = ∑ r : Fin 1024, x (ix2 r q) := by
  refine (shapeCast_a_1a_apply _ _ u q).trans ?_
  refine (Ideal.multiReduction_add_single x 0x00000000#32 Facts₀.reduces_S1024x512_S512 hφ hacc (ix1 q)).trans ?_
  refine Finset.sum_congr rfl fun r _ => congrArg x (funext fun a => ?_)
  match a with
  | ⟨0, _⟩ => rfl
  | ⟨1, _⟩ => rfl

/-- The reset value is the zero row. -/
theorem zero_apply (y : S1x512.Idx) : k0_pay3 (F := Ideal) y = 0 := by
  unfold k0_pay3
  rw [shapeCast_self]
  exact Ideal.ofBits_zero_f32

theorem pay4_eq : k0_pay4 (F := Ideal) = k0_pay3 (F := Ideal) := rfl
theorem pay5_eq : k0_pay5 (F := Ideal) = k0_pay3 (F := Ideal) := rfl
theorem pay6_eq : k0_pay6 (F := Ideal) = k0_pay3 (F := Ideal) := rfl
theorem pay7_eq : k0_pay7 (F := Ideal) = k0_pay3 (F := Ideal) := rfl

/-- ∑p update. -/
theorem sumP_apply (x0 : Vec Ideal S1024x512 .f32) (a : Vec Ideal S1x512 .f32) (u : Fin 1) (q : Fin 512) :
    k0_pay8 (F := Ideal) x0 a (ix2 u q) = a (ix2 u q) + ∑ r : Fin 1024, x0 (ix2 r q) := by
  unfold k0_pay8
  rw [shapeCast_self]
  exact congrArg (a (ix2 u q) + ·) (rowSum_apply x0 _ _ u q)

/-- ∑t update. -/
theorem sumT_apply (x1 : Vec Ideal S1024x512 .f32) (a : Vec Ideal S1x512 .f32) (u : Fin 1) (q : Fin 512) :
    k0_pay9 (F := Ideal) x1 a (ix2 u q) = a (ix2 u q) + ∑ r : Fin 1024, x1 (ix2 r q) := by
  unfold k0_pay9
  rw [shapeCast_self]
  exact congrArg (a (ix2 u q) + ·) (rowSum_apply x1 _ _ u q)

/-- ∑p² update. -/
theorem sumPP_apply (x0 : Vec Ideal S1024x512 .f32) (a : Vec Ideal S1x512 .f32) (u : Fin 1) (q : Fin 512) :
    k0_pay10 (F := Ideal) x0 a (ix2 u q) = a (ix2 u q) + ∑ r : Fin 1024, x0 (ix2 r q) * x0 (ix2 r q) := by
  unfold k0_pay10
  rw [shapeCast_self]
  exact congrArg (a (ix2 u q) + ·) (rowSum_apply (mulf x0 x0) _ _ u q)

/-- ∑t² update. -/
theorem sumTT_apply (x1 : Vec Ideal S1024x512 .f32) (a : Vec Ideal S1x512 .f32) (u : Fin 1) (q : Fin 512) :
    k0_pay1 (F := Ideal) a (k0_pay11 x1) (ix2 u q) = a (ix2 u q) + ∑ r : Fin 1024, x1 (ix2 r q) * x1 (ix2 r q) := by
  unfold k0_pay1 k0_pay11
  rw [shapeCast_self]
  exact congrArg (a (ix2 u q) + ·) (rowSum_apply (mulf x1 x1) _ _ u q)

/-- ∑p·t update. -/
theorem sumPT_apply (x0 x1 : Vec Ideal S1024x512 .f32) (a : Vec Ideal S1x512 .f32) (u : Fin 1) (q : Fin 512) :
    k0_pay2 (F := Ideal) x0 x1 a (ix2 u q) = a (ix2 u q) + ∑ r : Fin 1024, x0 (ix2 r q) * x1 (ix2 r q) := by
  unfold k0_pay2
  rw [shapeCast_self]
  exact congrArg (a (ix2 u q) + ·) (rowSum_apply (mulf x0 x1) _ _ u q)

end Cert.KernelIdeal.Payload

end
-- ==== Proof.Fold.lean ====
/-
  From the point-by-point accumulation to whole-column sums.

  Grid point t = 16·b + k handles column block b (512 columns) and row block k (1024 rows). An accumulator is reset at
  k = 0 and, at every k, gains the block's column sums of f(p, t) for its own f; so after k = 15 its entry in column q is
  the sum over all 16·1024 = 16384 rows of f(p, t) in column 512·b + q. The sum over a run of row blocks is first a sum
  over the blocks of the sums within a block; splitting a row index R < 16384 as 1024·k + r regroups it.
-/
import proofs.«175954_j27161373180458_1_alg».proof.Proof.FrameKernelIdeal
import proofs.«175954_j27161373180458_1_alg».proof.Proof.Pieces
import proofs.«175954_j27161373180458_1_alg».proof.Proof.PayloadSums
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.Fold

open Cert.KernelIdeal Cert.KernelIdeal.Gen Cert.KernelIdeal.GenP Cert.KernelIdeal.Payload

variable (m : (ℓ : Loc nD τ sig) → Buf (Elt Ideal) ℓ)

/-- The p block and the t block of a grid point, and the two whole arrays. -/
abbrev pblk (c : Dev nD) (t : Fin cfg0.N) : Vec Ideal S1024x512 .f32 := iblk m c 0 t
abbrev tblk (c : Dev nD) (t : Fin cfg0.N) : Vec Ideal S1024x512 .f32 := iblk m c 1 t
abbrev parr (c : Dev nD) : Vec Ideal S16384x4096 .f32 := V m c main_arg0
abbrev tarr (c : Dev nD) : Vec Ideal S16384x4096 .f32 := V m c main_arg1

/-- The input windows' block indices at point t: row block t mod 16, column block t div 16. -/
theorem in_index : ∀ t : Fin cfg0.N, win0_0.index t (0 : Fin 2) = t.val % 16 ∧ win0_0.index t (1 : Fin 2) = t.val / 16
    ∧ win0_1.index t (0 : Fin 2) = t.val % 16 ∧ win0_1.index t (1 : Fin 2) = t.val / 16 :=
  (by decide +kernel : ∀ t : Fin grid0.N, _)

theorem lt128 (t : Fin cfg0.N) : t.val < 128 := lt_of_lt_of_eq t.isLt (show cfg0.N = 128 from N_0)

/-- Entry (r, q) of point t's p block is entry (1024·(t mod 16) + r, 512·(t div 16) + q) of p. -/
theorem pblk_apply (c : Dev nD) (t : Fin cfg0.N) (r : Fin 1024) (q : Fin 512) (R : Fin 16384) (C : Fin 4096)
    (hR : R.val = 1024 * (t.val % 16) + r.val) (hC : C.val = 512 * (t.val / 16) + q.val) :
    pblk m c t (ix2 r q) = parr m c (ix2 R C) := by
  obtain ⟨e0, e1, -, -⟩ := in_index t
  show iblk m c 0 t (ix2 r q) = _
  unfold iblk
  rw [View.read_apply]
  show V m c main_arg0 _ = V m c main_arg0 _
  congr 1
  funext a
  apply Fin.ext
  match a with
  | ⟨0, _⟩ => show win0_0.index t (0 : Fin 2) * 1024 + 1 * r.val = R.val; rw [e0, hR]; omega
  | ⟨1, _⟩ => show win0_0.index t (1 : Fin 2) * 512 + 1 * q.val = C.val; rw [e1, hC]; omega

/-- The same for the t block. -/
theorem tblk_apply (c : Dev nD) (t : Fin cfg0.N) (r : Fin 1024) (q : Fin 512) (R : Fin 16384) (C : Fin 4096)
    (hR : R.val = 1024 * (t.val % 16) + r.val) (hC : C.val = 512 * (t.val / 16) + q.val) :
    tblk m c t (ix2 r q) = tarr m c (ix2 R C) := by
  obtain ⟨-, -, e0, e1⟩ := in_index t
  show iblk m c 1 t (ix2 r q) = _
  unfold iblk
  rw [View.read_apply]
  show V m c main_arg1 _ = V m c main_arg1 _
  congr 1
  funext a
  apply Fin.ext
  match a with
  | ⟨0, _⟩ => show win0_1.index t (0 : Fin 2) * 1024 + 1 * r.val = R.val; rw [e0, hR]; omega
  | ⟨1, _⟩ => show win0_1.index t (1 : Fin 2) * 512 + 1 * q.val = C.val; rw [e1, hC]; omega

/-! ## One accumulator, whatever its addend -/

/-- The update every accumulator makes at a point: the old row plus the block's column sums of `f p t`. -/
def upd (f : EReal → EReal → EReal) (x0 x1 : Vec Ideal S1024x512 .f32) (a : Vec Ideal S1x512 .f32) :
    Vec Ideal S1x512 .f32 :=
  fun y => a y + ∑ r : Fin 1024, f (x0 (ix2 r (y 1))) (x1 (ix2 r (y 1)))

/-- The zero row. -/
def zeroRow : Vec Ideal S1x512 .f32 := fun _ => 0

theorem pay3_eq_zeroRow : k0_pay3 (F := Ideal) = zeroRow := funext fun y => zero_apply y

theorem sumP_eq_upd (x0 x1 : Vec Ideal S1024x512 .f32) (a : Vec Ideal S1x512 .f32) :
    k0_pay8 (F := Ideal) x0 a = upd (fun u _ => u) x0 x1 a := funext fun y => by
  rw [eq_ix2 y]; exact sumP_apply x0 a _ _

theorem sumT_eq_upd (x0 x1 : Vec Ideal S1024x512 .f32) (a : Vec Ideal S1x512 .f32) :
    k0_pay9 (F := Ideal) x1 a = upd (fun _ v => v) x0 x1 a := funext fun y => by
  rw [eq_ix2 y]; exact sumT_apply x1 a _ _

theorem sumPP_eq_upd (x0 x1 : Vec Ideal S1024x512 .f32) (a : Vec Ideal S1x512 .f32) :
    k0_pay10 (F := Ideal) x0 a = upd (fun u _ => u * u) x0 x1 a := funext fun y => by
  rw [eq_ix2 y]; exact sumPP_apply x0 a _ _

theorem sumTT_eq_upd (x0 x1 : Vec Ideal S1024x512 .f32) (a : Vec Ideal S1x512 .f32) :
    k0_pay1 (F := Ideal) a (k0_pay11 x1) = upd (fun _ v => v * v) x0 x1 a := funext fun y => by
  rw [eq_ix2 y]; exact sumTT_apply x1 a _ _

theorem sumPT_eq_upd (x0 x1 : Vec Ideal S1024x512 .f32) (a : Vec Ideal S1x512 .f32) :
    k0_pay2 (F := Ideal) x0 x1 a = upd (fun u v => u * v) x0 x1 a := funext fun y => by
  rw [eq_ix2 y]; exact sumPT_apply x0 x1 a _ _

/-- The addend of point n in column entry y: the block's column sum of `f p t` (zero past the grid). -/
def addend (f : EReal → EReal → EReal) (c : Dev nD) (n : ℕ) (q : Fin 512) : EReal :=
  if h : n < cfg0.N then ∑ r : Fin 1024, f (pblk m c ⟨n, h⟩ (ix2 r q)) (tblk m c ⟨n, h⟩ (ix2 r q)) else 0

theorem upd_eq_addend (f : EReal → EReal → EReal) (c : Dev nD) (n : ℕ) (h : n < cfg0.N) (a : Vec Ideal S1x512 .f32)
    (y : S1x512.Idx) : upd f (pblk m c ⟨n, h⟩) (tblk m c ⟨n, h⟩) a y = a y + addend m f c n (y 1) := by
  unfold upd addend; rw [dif_pos h]

/-- A row quantity that is reset to "zero + this point's addend" at the multiples of 16 and gains the point's addend
    elsewhere holds, at the last point of a run of 16, the sum of the run's sixteen addends. -/
theorem run_total (f : EReal → EReal → EReal) (c : Dev nD) (s : (n : ℕ) → n < cfg0.N → Vec Ideal S1x512 .f32)
    (h0 : ∀ (n : ℕ) (h : n < cfg0.N), n % 16 = 0 → s n h = upd f (pblk m c ⟨n, h⟩) (tblk m c ⟨n, h⟩) zeroRow)
    (hs : ∀ (n : ℕ) (h : n + 1 < cfg0.N), ¬(n + 1) % 16 = 0 →
      s (n + 1) h = upd f (pblk m c ⟨n + 1, h⟩) (tblk m c ⟨n + 1, h⟩) (s n (Nat.lt_of_succ_lt h)))
    (t : Fin cfg0.N) (ht : t.val % 16 = 15) (y : S1x512.Idx) :
    s t.val t.isLt y = ∑ k ∈ Finset.range 16, addend m f c (16 * (t.val / 16) + k) (y 1) := by
  have hN := lt128 t
  have h' : 16 * (t.val / 16) + t.val % 16 < cfg0.N := by rw [Nat.div_add_mod]; exact t.isLt
  rw [Pipeline.eq_accAt_of_mod s 16
    (fun n h => upd f (pblk m c ⟨n, h⟩) (tblk m c ⟨n, h⟩) zeroRow)
    (fun n h acc => upd f (pblk m c ⟨n, h⟩) (tblk m c ⟨n, h⟩) acc) h0 hs (by norm_num) t.val t.isLt h']
  have key := Pipeline.accAt_add_apply
    (fun n h => upd f (pblk m c ⟨n, h⟩) (tblk m c ⟨n, h⟩) zeroRow)
    (fun n h acc => upd f (pblk m c ⟨n, h⟩) (tblk m c ⟨n, h⟩) acc) (fun _ => (0 : EReal)) (fun n y => addend m f c n (y 1))
    (16 * (t.val / 16)) 15
    (fun h i => upd_eq_addend m f c _ h zeroRow i)
    (fun n h acc i _ _ => upd_eq_addend m f c n h acc i)
    (t.val % 16) (by omega) h' y
  rw [key, ht, zero_add]

/-! ## Sixteen runs of 1024 rows are all 16384 rows -/

/-- A sum over the first 1024·K naturals, run by run. -/
theorem sum_range_blocks {β : Type*} [AddCommMonoid β] (G : ℕ → β) :
    ∀ K : ℕ, ∑ R ∈ Finset.range (1024 * K), G R = ∑ k ∈ Finset.range K, ∑ r ∈ Finset.range 1024, G (1024 * k + r)
  | 0 => by simp
  | K + 1 => by
    rw [Nat.mul_succ, Finset.sum_range_add, sum_range_blocks G K]
    exact (Finset.sum_range_succ (fun k => ∑ r ∈ Finset.range 1024, G (1024 * k + r)) K).symm

/-- The sixteen addends of the run of points that ends at t (t mod 16 = 15), in block column q, add up to the sum
    over every row of `f p t` in column 512·(t div 16) + q of the arrays. -/
theorem run_column (f : EReal → EReal → EReal) (c : Dev nD) (t : Fin cfg0.N) (q : Fin 512) :
    ∑ k ∈ Finset.range 16, addend m f c (16 * (t.val / 16) + k) q
      = ∑ R : Fin 16384, f (parr m c (ix2 R ⟨512 * (t.val / 16) + q.val, by have := lt128 t; omega⟩))
          (tarr m c (ix2 R ⟨512 * (t.val / 16) + q.val, by have := lt128 t; omega⟩)) := by
  have hN := lt128 t
  have hcol : 512 * (t.val / 16) + q.val < 4096 := by omega
  -- the summand as a function of the natural row index
  let G : ℕ → EReal := fun R => if h : R < 16384 then
    f (parr m c (ix2 ⟨R, h⟩ ⟨512 * (t.val / 16) + q.val, hcol⟩)) (tarr m c (ix2 ⟨R, h⟩ ⟨512 * (t.val / 16) + q.val, hcol⟩)) else 0
  have hR : ∑ R : Fin 16384, f (parr m c (ix2 R ⟨512 * (t.val / 16) + q.val, hcol⟩))
      (tarr m c (ix2 R ⟨512 * (t.val / 16) + q.val, hcol⟩)) = ∑ R ∈ Finset.range 16384, G R := by
    rw [← Fin.sum_univ_eq_sum_range G 16384]
    exact Finset.sum_congr rfl fun R _ => by show _ = G R.val; simp only [G]; rw [dif_pos R.isLt]
  rw [hR]
  refine Eq.symm ((sum_range_blocks G 16).trans ?_)
  refine Finset.sum_congr rfl fun k hk => Eq.symm ?_
  have hk16 : k < 16 := Finset.mem_range.mp hk
  have hn : 16 * (t.val / 16) + k < cfg0.N := lt_of_lt_of_eq (by omega : 16 * (t.val / 16) + k < 128) N_0.symm
  unfold addend
  rw [dif_pos hn, ← Fin.sum_univ_eq_sum_range (fun r => G (1024 * k + r)) 1024]
  refine Finset.sum_congr rfl fun r _ => ?_
  have hrow : 1024 * k + r.val < 16384 := by have := r.isLt; omega
  have hmod : (16 * (t.val / 16) + k) % 16 = k := by omega
  have hdiv : (16 * (t.val / 16) + k) / 16 = t.val / 16 := by omega
  show _ = G (1024 * k + r.val)
  simp only [G]
  rw [dif_pos hrow,
    pblk_apply m c ⟨16 * (t.val / 16) + k, hn⟩ r q ⟨1024 * k + r.val, hrow⟩ ⟨512 * (t.val / 16) + q.val, hcol⟩
      (by show 1024 * k + r.val = 1024 * ((16 * (t.val / 16) + k) % 16) + r.val; rw [hmod])
      (by show 512 * (t.val / 16) + q.val = 512 * ((16 * (t.val / 16) + k) / 16) + q.val; rw [hdiv]),
    tblk_apply m c ⟨16 * (t.val / 16) + k, hn⟩ r q ⟨1024 * k + r.val, hrow⟩ ⟨512 * (t.val / 16) + q.val, hcol⟩
      (by show 1024 * k + r.val = 1024 * ((16 * (t.val / 16) + k) % 16) + r.val; rw [hmod])
      (by show 512 * (t.val / 16) + q.val = 512 * ((16 * (t.val / 16) + k) / 16) + q.val; rw [hdiv])]

/-! ## The five accumulators of the frame, point by point -/

section Accumulators

variable (c : Dev nD)

/-- A piece lemma's buffers at grid point `t`. -/
local notation:max f:max "⟪" t "⟫" =>
  f c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) scM0_1 (Memref.isWhole_whole _)
    scM0_2 (Memref.isWhole_whole _) scM0_3 (Memref.isWhole_whole _) scM0_4 (Memref.isWhole_whole _)

/-- What the accumulators of ∑p, ∑t, ∑p², ∑t², ∑p·t hold after point n. -/
abbrev accP (n : ℕ) (h : n < cfg0.N) : Vec Ideal S1x512 .f32 := (outsAt0 m c n h).2.2.2.2.2.1
abbrev accT (n : ℕ) (h : n < cfg0.N) : Vec Ideal S1x512 .f32 := (outsAt0 m c n h).2.2.2.2.2.2.1
abbrev accPP (n : ℕ) (h : n < cfg0.N) : Vec Ideal S1x512 .f32 := (outsAt0 m c n h).2.2.2.2.2.2.2.1
abbrev accTT (n : ℕ) (h : n < cfg0.N) : Vec Ideal S1x512 .f32 := (outsAt0 m c n h).2.2.2.2.2.2.2.2.1
abbrev accPT (n : ℕ) (h : n < cfg0.N) : Vec Ideal S1x512 .f32 := (outsAt0 m c n h).2.2.2.2.2.2.2.2.2

theorem accP_reset (n : ℕ) (h : n < cfg0.N) (h0 : n % 16 = 0) :
    accP m c n h = upd (fun u _ => u) (pblk m c ⟨n, h⟩) (tblk m c ⟨n, h⟩) zeroRow := by
  have h1 : ¬(⟨n, h⟩ : Fin cfg0.N).val % 16 = 15 := by dsimp only; omega
  show (outsAt0 m c (⟨n, h⟩ : Fin cfg0.N).val (⟨n, h⟩ : Fin cfg0.N).isLt).2.2.2.2.2.1 = _
  rw [outsAt0_A m c ⟨n, h⟩ h0 h1]
  dsimp only
  refine (Pieces.sumP_first⟪(⟨n, h⟩ : Fin cfg0.N)⟫ ((hcond0_0 _).mpr h0) (fun hh => h1 ((hcond0_1 _).mp hh))
    (iblk m c 0 ⟨n, h⟩) (iblk m c 1 ⟨n, h⟩)).trans ?_
  rw [pay3_eq_zeroRow]
  exact sumP_eq_upd _ _ _

theorem accT_reset (n : ℕ) (h : n < cfg0.N) (h0 : n % 16 = 0) :
    accT m c n h = upd (fun _ v => v) (pblk m c ⟨n, h⟩) (tblk m c ⟨n, h⟩) zeroRow := by
  have h1 : ¬(⟨n, h⟩ : Fin cfg0.N).val % 16 = 15 := by dsimp only; omega
  show (outsAt0 m c (⟨n, h⟩ : Fin cfg0.N).val (⟨n, h⟩ : Fin cfg0.N).isLt).2.2.2.2.2.2.1 = _
  rw [outsAt0_A m c ⟨n, h⟩ h0 h1]
  dsimp only
  refine (Pieces.sumT_first⟪(⟨n, h⟩ : Fin cfg0.N)⟫ ((hcond0_0 _).mpr h0) (fun hh => h1 ((hcond0_1 _).mp hh))
    (iblk m c 0 ⟨n, h⟩) (iblk m c 1 ⟨n, h⟩)).trans ?_
  rw [Payload.pay4_eq, pay3_eq_zeroRow]
  exact sumT_eq_upd _ _ _

theorem accPP_reset (n : ℕ) (h : n < cfg0.N) (h0 : n % 16 = 0) :
    accPP m c n h = upd (fun u _ => u * u) (pblk m c ⟨n, h⟩) (tblk m c ⟨n, h⟩) zeroRow := by
  have h1 : ¬(⟨n, h⟩ : Fin cfg0.N).val % 16 = 15 := by dsimp only; omega
  show (outsAt0 m c (⟨n, h⟩ : Fin cfg0.N).val (⟨n, h⟩ : Fin cfg0.N).isLt).2.2.2.2.2.2.2.1 = _
  rw [outsAt0_A m c ⟨n, h⟩ h0 h1]
  dsimp only
  refine (Pieces.sumPP_first⟪(⟨n, h⟩ : Fin cfg0.N)⟫ ((hcond0_0 _).mpr h0) (fun hh => h1 ((hcond0_1 _).mp hh))
    (iblk m c 0 ⟨n, h⟩) (iblk m c 1 ⟨n, h⟩)).trans ?_
  rw [Payload.pay5_eq, pay3_eq_zeroRow]
  exact sumPP_eq_upd _ _ _

theorem accTT_reset (n : ℕ) (h : n < cfg0.N) (h0 : n % 16 = 0) :
    accTT m c n h = upd (fun _ v => v * v) (pblk m c ⟨n, h⟩) (tblk m c ⟨n, h⟩) zeroRow := by
  have h1 : ¬(⟨n, h⟩ : Fin cfg0.N).val % 16 = 15 := by dsimp only; omega
  show (outsAt0 m c (⟨n, h⟩ : Fin cfg0.N).val (⟨n, h⟩ : Fin cfg0.N).isLt).2.2.2.2.2.2.2.2.1 = _
  rw [outsAt0_A m c ⟨n, h⟩ h0 h1]
  dsimp only
  refine (Pieces.sumTT_first⟪(⟨n, h⟩ : Fin cfg0.N)⟫ ((hcond0_0 _).mpr h0) (fun hh => h1 ((hcond0_1 _).mp hh))
    (iblk m c 0 ⟨n, h⟩) (iblk m c 1 ⟨n, h⟩)).trans ?_
  rw [Payload.pay6_eq, pay3_eq_zeroRow]
  exact sumTT_eq_upd _ _ _

theorem accPT_reset (n : ℕ) (h : n < cfg0.N) (h0 : n % 16 = 0) :
    accPT m c n h = upd (fun u v => u * v) (pblk m c ⟨n, h⟩) (tblk m c ⟨n, h⟩) zeroRow := by
  have h1 : ¬(⟨n, h⟩ : Fin cfg0.N).val % 16 = 15 := by dsimp only; omega
  show (outsAt0 m c (⟨n, h⟩ : Fin cfg0.N).val (⟨n, h⟩ : Fin cfg0.N).isLt).2.2.2.2.2.2.2.2.2 = _
  rw [outsAt0_A m c ⟨n, h⟩ h0 h1]
  dsimp only
  refine (Pieces.sumPT_first⟪(⟨n, h⟩ : Fin cfg0.N)⟫ ((hcond0_0 _).mpr h0) (fun hh => h1 ((hcond0_1 _).mp hh))
    (iblk m c 0 ⟨n, h⟩) (iblk m c 1 ⟨n, h⟩)).trans ?_
  rw [Payload.pay7_eq, pay3_eq_zeroRow]
  exact sumPT_eq_upd _ _ _

theorem accP_step (n : ℕ) (h : n + 1 < cfg0.N) (h0 : ¬(n + 1) % 16 = 0) :
    accP m c (n + 1) h = upd (fun u _ => u) (pblk m c ⟨n + 1, h⟩) (tblk m c ⟨n + 1, h⟩) (accP m c n (Nat.lt_of_succ_lt h)) := by
  show (outsAt0 m c (⟨n + 1, h⟩ : Fin cfg0.N).val (⟨n + 1, h⟩ : Fin cfg0.N).isLt).2.2.2.2.2.1 = _
  by_cases h1 : (n + 1) % 16 = 15
  · rw [outsAt0_C m c ⟨n + 1, h⟩ h0 h1]
    dsimp only
    refine (Pieces.sumP_last⟪(⟨n + 1, h⟩ : Fin cfg0.N)⟫ (fun hh => h0 ((hcond0_0 _).mp hh)) ((hcond0_1 _).mpr h1)
      (iblk m c 0 ⟨n + 1, h⟩) (iblk m c 1 ⟨n + 1, h⟩)
        (outsAt0 m c ((⟨n + 1, h⟩ : Fin cfg0.N).val - 1) (Nat.lt_of_le_of_lt (Nat.sub_le _ _) (⟨n + 1, h⟩ : Fin cfg0.N).isLt)).2.2.2.2.2.1
        (outsAt0 m c ((⟨n + 1, h⟩ : Fin cfg0.N).val - 1) (Nat.lt_of_le_of_lt (Nat.sub_le _ _) (⟨n + 1, h⟩ : Fin cfg0.N).isLt)).2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.2.2).trans ?_
    exact sumP_eq_upd _ _ _
  · rw [outsAt0_B m c ⟨n + 1, h⟩ h0 h1]
    dsimp only
    refine (Pieces.sumP_mid⟪(⟨n + 1, h⟩ : Fin cfg0.N)⟫ (fun hh => h0 ((hcond0_0 _).mp hh)) (fun hh => h1 ((hcond0_1 _).mp hh))
      (iblk m c 0 ⟨n + 1, h⟩) (iblk m c 1 ⟨n + 1, h⟩)
        (outsAt0 m c ((⟨n + 1, h⟩ : Fin cfg0.N).val - 1) (Nat.lt_of_le_of_lt (Nat.sub_le _ _) (⟨n + 1, h⟩ : Fin cfg0.N).isLt)).2.2.2.2.2.1
        (outsAt0 m c ((⟨n + 1, h⟩ : Fin cfg0.N).val - 1) (Nat.lt_of_le_of_lt (Nat.sub_le _ _) (⟨n + 1, h⟩ : Fin cfg0.N).isLt)).2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.2.2).trans ?_
    exact sumP_eq_upd _ _ _

theorem accT_step (n : ℕ) (h : n + 1 < cfg0.N) (h0 : ¬(n + 1) % 16 = 0) :
    accT m c (n + 1) h = upd (fun _ v => v) (pblk m c ⟨n + 1, h⟩) (tblk m c ⟨n + 1, h⟩) (accT m c n (Nat.lt_of_succ_lt h)) := by
  show (outsAt0 m c (⟨n + 1, h⟩ : Fin cfg0.N).val (⟨n + 1, h⟩ : Fin cfg0.N).isLt).2.2.2.2.2.2.1 = _
  by_cases h1 : (n + 1) % 16 = 15
  · rw [outsAt0_C m c ⟨n + 1, h⟩ h0 h1]
    dsimp only
    refine (Pieces.sumT_last⟪(⟨n + 1, h⟩ : Fin cfg0.N)⟫ (fun hh => h0 ((hcond0_0 _).mp hh)) ((hcond0_1 _).mpr h1)
      (iblk m c 0 ⟨n + 1, h⟩) (iblk m c 1 ⟨n + 1, h⟩)
        (outsAt0 m c ((⟨n + 1, h⟩ : Fin cfg0.N).val - 1) (Nat.lt_of_le_of_lt (Nat.sub_le _ _) (⟨n + 1, h⟩ : Fin cfg0.N).isLt)).2.2.2.2.2.1
        (outsAt0 m c ((⟨n + 1, h⟩ : Fin cfg0.N).val - 1) (Nat.lt_of_le_of_lt (Nat.sub_le _ _) (⟨n + 1, h⟩ : Fin cfg0.N).isLt)).2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.2.2).trans ?_
    exact sumT_eq_upd _ _ _
  · rw [outsAt0_B m c ⟨n + 1, h⟩ h0 h1]
    dsimp only
    refine (Pieces.sumT_mid⟪(⟨n + 1, h⟩ : Fin cfg0.N)⟫ (fun hh => h0 ((hcond0_0 _).mp hh)) (fun hh => h1 ((hcond0_1 _).mp hh))
      (iblk m c 0 ⟨n + 1, h⟩) (iblk m c 1 ⟨n + 1, h⟩)
        (outsAt0 m c ((⟨n + 1, h⟩ : Fin cfg0.N).val - 1) (Nat.lt_of_le_of_lt (Nat.sub_le _ _) (⟨n + 1, h⟩ : Fin cfg0.N).isLt)).2.2.2.2.2.1
        (outsAt0 m c ((⟨n + 1, h⟩ : Fin cfg0.N).val - 1) (Nat.lt_of_le_of_lt (Nat.sub_le _ _) (⟨n + 1, h⟩ : Fin cfg0.N).isLt)).2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.2.2).trans ?_
    exact sumT_eq_upd _ _ _

theorem accPP_step (n : ℕ) (h : n + 1 < cfg0.N) (h0 : ¬(n + 1) % 16 = 0) :
    accPP m c (n + 1) h = upd (fun u _ => u * u) (pblk m c ⟨n + 1, h⟩) (tblk m c ⟨n + 1, h⟩) (accPP m c n (Nat.lt_of_succ_lt h)) := by
  show (outsAt0 m c (⟨n + 1, h⟩ : Fin cfg0.N).val (⟨n + 1, h⟩ : Fin cfg0.N).isLt).2.2.2.2.2.2.2.1 = _
  by_cases h1 : (n + 1) % 16 = 15
  · rw [outsAt0_C m c ⟨n + 1, h⟩ h0 h1]
    dsimp only
    refine (Pieces.sumPP_last⟪(⟨n + 1, h⟩ : Fin cfg0.N)⟫ (fun hh => h0 ((hcond0_0 _).mp hh)) ((hcond0_1 _).mpr h1)
      (iblk m c 0 ⟨n + 1, h⟩) (iblk m c 1 ⟨n + 1, h⟩)
        (outsAt0 m c ((⟨n + 1, h⟩ : Fin cfg0.N).val - 1) (Nat.lt_of_le_of_lt (Nat.sub_le _ _) (⟨n + 1, h⟩ : Fin cfg0.N).isLt)).2.2.2.2.2.1
        (outsAt0 m c ((⟨n + 1, h⟩ : Fin cfg0.N).val - 1) (Nat.lt_of_le_of_lt (Nat.sub_le _ _) (⟨n + 1, h⟩ : Fin cfg0.N).isLt)).2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.2.2).trans ?_
    exact sumPP_eq_upd _ _ _
  · rw [outsAt0_B m c ⟨n + 1, h⟩ h0 h1]
    dsimp only
    refine (Pieces.sumPP_mid⟪(⟨n + 1, h⟩ : Fin cfg0.N)⟫ (fun hh => h0 ((hcond0_0 _).mp hh)) (fun hh => h1 ((hcond0_1 _).mp hh))
      (iblk m c 0 ⟨n + 1, h⟩) (iblk m c 1 ⟨n + 1, h⟩)
        (outsAt0 m c ((⟨n + 1, h⟩ : Fin cfg0.N).val - 1) (Nat.lt_of_le_of_lt (Nat.sub_le _ _) (⟨n + 1, h⟩ : Fin cfg0.N).isLt)).2.2.2.2.2.1
        (outsAt0 m c ((⟨n + 1, h⟩ : Fin cfg0.N).val - 1) (Nat.lt_of_le_of_lt (Nat.sub_le _ _) (⟨n + 1, h⟩ : Fin cfg0.N).isLt)).2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.2.2).trans ?_
    exact sumPP_eq_upd _ _ _

theorem accTT_step (n : ℕ) (h : n + 1 < cfg0.N) (h0 : ¬(n + 1) % 16 = 0) :
    accTT m c (n + 1) h = upd (fun _ v => v * v) (pblk m c ⟨n + 1, h⟩) (tblk m c ⟨n + 1, h⟩) (accTT m c n (Nat.lt_of_succ_lt h)) := by
  show (outsAt0 m c (⟨n + 1, h⟩ : Fin cfg0.N).val (⟨n + 1, h⟩ : Fin cfg0.N).isLt).2.2.2.2.2.2.2.2.1 = _
  by_cases h1 : (n + 1) % 16 = 15
  · rw [outsAt0_C m c ⟨n + 1, h⟩ h0 h1]
    dsimp only
    refine (Pieces.sumTT_last⟪(⟨n + 1, h⟩ : Fin cfg0.N)⟫ (fun hh => h0 ((hcond0_0 _).mp hh)) ((hcond0_1 _).mpr h1)
      (iblk m c 0 ⟨n + 1, h⟩) (iblk m c 1 ⟨n + 1, h⟩)
        (outsAt0 m c ((⟨n + 1, h⟩ : Fin cfg0.N).val - 1) (Nat.lt_of_le_of_lt (Nat.sub_le _ _) (⟨n + 1, h⟩ : Fin cfg0.N).isLt)).2.2.2.2.2.1
        (outsAt0 m c ((⟨n + 1, h⟩ : Fin cfg0.N).val - 1) (Nat.lt_of_le_of_lt (Nat.sub_le _ _) (⟨n + 1, h⟩ : Fin cfg0.N).isLt)).2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.2.2).trans ?_
    exact sumTT_eq_upd _ _ _
  · rw [outsAt0_B m c ⟨n + 1, h⟩ h0 h1]
    dsimp only
    refine (Pieces.sumTT_mid⟪(⟨n + 1, h⟩ : Fin cfg0.N)⟫ (fun hh => h0 ((hcond0_0 _).mp hh)) (fun hh => h1 ((hcond0_1 _).mp hh))
      (iblk m c 0 ⟨n + 1, h⟩) (iblk m c 1 ⟨n + 1, h⟩)
        (outsAt0 m c ((⟨n + 1, h⟩ : Fin cfg0.N).val - 1) (Nat.lt_of_le_of_lt (Nat.sub_le _ _) (⟨n + 1, h⟩ : Fin cfg0.N).isLt)).2.2.2.2.2.1
        (outsAt0 m c ((⟨n + 1, h⟩ : Fin cfg0.N).val - 1) (Nat.lt_of_le_of_lt (Nat.sub_le _ _) (⟨n + 1, h⟩ : Fin cfg0.N).isLt)).2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.2.2).trans ?_
    exact sumTT_eq_upd _ _ _

theorem accPT_step (n : ℕ) (h : n + 1 < cfg0.N) (h0 : ¬(n + 1) % 16 = 0) :
    accPT m c (n + 1) h = upd (fun u v => u * v) (pblk m c ⟨n + 1, h⟩) (tblk m c ⟨n + 1, h⟩) (accPT m c n (Nat.lt_of_succ_lt h)) := by
  show (outsAt0 m c (⟨n + 1, h⟩ : Fin cfg0.N).val (⟨n + 1, h⟩ : Fin cfg0.N).isLt).2.2.2.2.2.2.2.2.2 = _
  by_cases h1 : (n + 1) % 16 = 15
  · rw [outsAt0_C m c ⟨n + 1, h⟩ h0 h1]
    dsimp only
    refine (Pieces.sumPT_last⟪(⟨n + 1, h⟩ : Fin cfg0.N)⟫ (fun hh => h0 ((hcond0_0 _).mp hh)) ((hcond0_1 _).mpr h1)
      (iblk m c 0 ⟨n + 1, h⟩) (iblk m c 1 ⟨n + 1, h⟩)
        (outsAt0 m c ((⟨n + 1, h⟩ : Fin cfg0.N).val - 1) (Nat.lt_of_le_of_lt (Nat.sub_le _ _) (⟨n + 1, h⟩ : Fin cfg0.N).isLt)).2.2.2.2.2.1
        (outsAt0 m c ((⟨n + 1, h⟩ : Fin cfg0.N).val - 1) (Nat.lt_of_le_of_lt (Nat.sub_le _ _) (⟨n + 1, h⟩ : Fin cfg0.N).isLt)).2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.2.2).trans ?_
    exact sumPT_eq_upd _ _ _
  · rw [outsAt0_B m c ⟨n + 1, h⟩ h0 h1]
    dsimp only
    refine (Pieces.sumPT_mid⟪(⟨n + 1, h⟩ : Fin cfg0.N)⟫ (fun hh => h0 ((hcond0_0 _).mp hh)) (fun hh => h1 ((hcond0_1 _).mp hh))
      (iblk m c 0 ⟨n + 1, h⟩) (iblk m c 1 ⟨n + 1, h⟩)
        (outsAt0 m c ((⟨n + 1, h⟩ : Fin cfg0.N).val - 1) (Nat.lt_of_le_of_lt (Nat.sub_le _ _) (⟨n + 1, h⟩ : Fin cfg0.N).isLt)).2.2.2.2.2.1
        (outsAt0 m c ((⟨n + 1, h⟩ : Fin cfg0.N).val - 1) (Nat.lt_of_le_of_lt (Nat.sub_le _ _) (⟨n + 1, h⟩ : Fin cfg0.N).isLt)).2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.2.1
        (outsAt0 m c ((⟨n + 1, h⟩ : Fin cfg0.N).val - 1) (Nat.lt_of_le_of_lt (Nat.sub_le _ _) (⟨n + 1, h⟩ : Fin cfg0.N).isLt)).2.2.2.2.2.2.2.2.2).trans ?_
    exact sumPT_eq_upd _ _ _

/-! At the last row block each output's staging buffer receives its accumulator's updated contents. -/

theorem outP_eq_acc (t : Fin cfg0.N) (h0 : ¬t.val % 16 = 0) (h1 : t.val % 16 = 15) :
    (outsAt0 m c t.val t.isLt).1 = accP m c t.val t.isLt := by
  show (outsAt0 m c t.val t.isLt).1 = (outsAt0 m c t.val t.isLt).2.2.2.2.2.1
  rw [outsAt0_C m c t h0 h1]
  dsimp only
  exact (Pieces.outP_last⟪t⟫ (fun hh => h0 ((hcond0_0 _).mp hh)) ((hcond0_1 _).mpr h1) (iblk m c 0 t) (iblk m c 1 t)
        (outsAt0 m c (t.val - 1) (Nat.lt_of_le_of_lt (Nat.sub_le _ _) t.isLt)).2.2.2.2.2.1
        (outsAt0 m c (t.val - 1) (Nat.lt_of_le_of_lt (Nat.sub_le _ _) t.isLt)).2.2.2.2.2.2.1
        (outsAt0 m c (t.val - 1) (Nat.lt_of_le_of_lt (Nat.sub_le _ _) t.isLt)).2.2.2.2.2.2.2.1
        (outsAt0 m c (t.val - 1) (Nat.lt_of_le_of_lt (Nat.sub_le _ _) t.isLt)).2.2.2.2.2.2.2.2.1
        (outsAt0 m c (t.val - 1) (Nat.lt_of_le_of_lt (Nat.sub_le _ _) t.isLt)).2.2.2.2.2.2.2.2.2).trans
    (Pieces.sumP_last⟪t⟫ (fun hh => h0 ((hcond0_0 _).mp hh)) ((hcond0_1 _).mpr h1) (iblk m c 0 t) (iblk m c 1 t)
        (outsAt0 m c (t.val - 1) (Nat.lt_of_le_of_lt (Nat.sub_le _ _) t.isLt)).2.2.2.2.2.1
        (outsAt0 m c (t.val - 1) (Nat.lt_of_le_of_lt (Nat.sub_le _ _) t.isLt)).2.2.2.2.2.2.1
        (outsAt0 m c (t.val - 1) (Nat.lt_of_le_of_lt (Nat.sub_le _ _) t.isLt)).2.2.2.2.2.2.2.1
        (outsAt0 m c (t.val - 1) (Nat.lt_of_le_of_lt (Nat.sub_le _ _) t.isLt)).2.2.2.2.2.2.2.2.1
        (outsAt0 m c (t.val - 1) (Nat.lt_of_le_of_lt (Nat.sub_le _ _) t.isLt)).2.2.2.2.2.2.2.2.2).symm

theorem outT_eq_acc (t : Fin cfg0.N) (h0 : ¬t.val % 16 = 0) (h1 : t.val % 16 = 15) :
    (outsAt0 m c t.val t.isLt).2.1 = accT m c t.val t.isLt := by
  show (outsAt0 m c t.val t.isLt).2.1 = (outsAt0 m c t.val t.isLt).2.2.2.2.2.2.1
  rw [outsAt0_C m c t h0 h1]
  dsimp only
  exact (Pieces.outT_last⟪t⟫ (fun hh => h0 ((hcond0_0 _).mp hh)) ((hcond0_1 _).mpr h1) (iblk m c 0 t) (iblk m c 1 t)
        (outsAt0 m c (t.val - 1) (Nat.lt_of_le_of_lt (Nat.sub_le _ _) t.isLt)).2.2.2.2.2.1
        (outsAt0 m c (t.val - 1) (Nat.lt_of_le_of_lt (Nat.sub_le _ _) t.isLt)).2.2.2.2.2.2.1
        (outsAt0 m c (t.val - 1) (Nat.lt_of_le_of_lt (Nat.sub_le _ _) t.isLt)).2.2.2.2.2.2.2.1
        (outsAt0 m c (t.val - 1) (Nat.lt_of_le_of_lt (Nat.sub_le _ _) t.isLt)).2.2.2.2.2.2.2.2.1
        (outsAt0 m c (t.val - 1) (Nat.lt_of_le_of_lt (Nat.sub_le _ _) t.isLt)).2.2.2.2.2.2.2.2.2).trans
    (Pieces.sumT_last⟪t⟫ (fun hh => h0 ((hcond0_0 _).mp hh)) ((hcond0_1 _).mpr h1) (iblk m c 0 t) (iblk m c 1 t)
        (outsAt0 m c (t.val - 1) (Nat.lt_of_le_of_lt (Nat.sub_le _ _) t.isLt)).2.2.2.2.2.1
        (outsAt0 m c (t.val - 1) (Nat.lt_of_le_of_lt (Nat.sub_le _ _) t.isLt)).2.2.2.2.2.2.1
        (outsAt0 m c (t.val - 1) (Nat.lt_of_le_of_lt (Nat.sub_le _ _) t.isLt)).2.2.2.2.2.2.2.1
        (outsAt0 m c (t.val - 1) (Nat.lt_of_le_of_lt (Nat.sub_le _ _) t.isLt)).2.2.2.2.2.2.2.2.1
        (outsAt0 m c (t.val - 1) (Nat.lt_of_le_of_lt (Nat.sub_le _ _) t.isLt)).2.2.2.2.2.2.2.2.2).symm

theorem outPP_eq_acc (t : Fin cfg0.N) (h0 : ¬t.val % 16 = 0) (h1 : t.val % 16 = 15) :
    (outsAt0 m c t.val t.isLt).2.2.1 = accPP m c t.val t.isLt := by
  show (outsAt0 m c t.val t.isLt).2.2.1 = (outsAt0 m c t.val t.isLt).2.2.2.2.2.2.2.1
  rw [outsAt0_C m c t h0 h1]
  dsimp only
  exact (Pieces.outPP_last⟪t⟫ (fun hh => h0 ((hcond0_0 _).mp hh)) ((hcond0_1 _).mpr h1) (iblk m c 0 t) (iblk m c 1 t)
        (outsAt0 m c (t.val - 1) (Nat.lt_of_le_of_lt (Nat.sub_le _ _) t.isLt)).2.2.2.2.2.1
        (outsAt0 m c (t.val - 1) (Nat.lt_of_le_of_lt (Nat.sub_le _ _) t.isLt)).2.2.2.2.2.2.1
        (outsAt0 m c (t.val - 1) (Nat.lt_of_le_of_lt (Nat.sub_le _ _) t.isLt)).2.2.2.2.2.2.2.1
        (outsAt0 m c (t.val - 1) (Nat.lt_of_le_of_lt (Nat.sub_le _ _) t.isLt)).2.2.2.2.2.2.2.2.1
        (outsAt0 m c (t.val - 1) (Nat.lt_of_le_of_lt (Nat.sub_le _ _) t.isLt)).2.2.2.2.2.2.2.2.2).trans
    (Pieces.sumPP_last⟪t⟫ (fun hh => h0 ((hcond0_0 _).mp hh)) ((hcond0_1 _).mpr h1) (iblk m c 0 t) (iblk m c 1 t)
        (outsAt0 m c (t.val - 1) (Nat.lt_of_le_of_lt (Nat.sub_le _ _) t.isLt)).2.2.2.2.2.1
        (outsAt0 m c (t.val - 1) (Nat.lt_of_le_of_lt (Nat.sub_le _ _) t.isLt)).2.2.2.2.2.2.1
        (outsAt0 m c (t.val - 1) (Nat.lt_of_le_of_lt (Nat.sub_le _ _) t.isLt)).2.2.2.2.2.2.2.1
        (outsAt0 m c (t.val - 1) (Nat.lt_of_le_of_lt (Nat.sub_le _ _) t.isLt)).2.2.2.2.2.2.2.2.1
        (outsAt0 m c (t.val - 1) (Nat.lt_of_le_of_lt (Nat.sub_le _ _) t.isLt)).2.2.2.2.2.2.2.2.2).symm

theorem outTT_eq_acc (t : Fin cfg0.N) (h0 : ¬t.val % 16 = 0) (h1 : t.val % 16 = 15) :
    (outsAt0 m c t.val t.isLt).2.2.2.1 = accTT m c t.val t.isLt := by
  show (outsAt0 m c t.val t.isLt).2.2.2.1 = (outsAt0 m c t.val t.isLt).2.2.2.2.2.2.2.2.1
  rw [outsAt0_C m c t h0 h1]
  dsimp only
  exact (Pieces.outTT_last⟪t⟫ (fun hh => h0 ((hcond0_0 _).mp hh)) ((hcond0_1 _).mpr h1) (iblk m c 0 t) (iblk m c 1 t)
        (outsAt0 m c (t.val - 1) (Nat.lt_of_le_of_lt (Nat.sub_le _ _) t.isLt)).2.2.2.2.2.1
        (outsAt0 m c (t.val - 1) (Nat.lt_of_le_of_lt (Nat.sub_le _ _) t.isLt)).2.2.2.2.2.2.1
        (outsAt0 m c (t.val - 1) (Nat.lt_of_le_of_lt (Nat.sub_le _ _) t.isLt)).2.2.2.2.2.2.2.1
        (outsAt0 m c (t.val - 1) (Nat.lt_of_le_of_lt (Nat.sub_le _ _) t.isLt)).2.2.2.2.2.2.2.2.1
        (outsAt0 m c (t.val - 1) (Nat.lt_of_le_of_lt (Nat.sub_le _ _) t.isLt)).2.2.2.2.2.2.2.2.2).trans
    (Pieces.sumTT_last⟪t⟫ (fun hh => h0 ((hcond0_0 _).mp hh)) ((hcond0_1 _).mpr h1) (iblk m c 0 t) (iblk m c 1 t)
        (outsAt0 m c (t.val - 1) (Nat.lt_of_le_of_lt (Nat.sub_le _ _) t.isLt)).2.2.2.2.2.1
        (outsAt0 m c (t.val - 1) (Nat.lt_of_le_of_lt (Nat.sub_le _ _) t.isLt)).2.2.2.2.2.2.1
        (outsAt0 m c (t.val - 1) (Nat.lt_of_le_of_lt (Nat.sub_le _ _) t.isLt)).2.2.2.2.2.2.2.1
        (outsAt0 m c (t.val - 1) (Nat.lt_of_le_of_lt (Nat.sub_le _ _) t.isLt)).2.2.2.2.2.2.2.2.1
        (outsAt0 m c (t.val - 1) (Nat.lt_of_le_of_lt (Nat.sub_le _ _) t.isLt)).2.2.2.2.2.2.2.2.2).symm

theorem outPT_eq_acc (t : Fin cfg0.N) (h0 : ¬t.val % 16 = 0) (h1 : t.val % 16 = 15) :
    (outsAt0 m c t.val t.isLt).2.2.2.2.1 = accPT m c t.val t.isLt := by
  show (outsAt0 m c t.val t.isLt).2.2.2.2.1 = (outsAt0 m c t.val t.isLt).2.2.2.2.2.2.2.2.2
  rw [outsAt0_C m c t h0 h1]
  dsimp only
  exact (Pieces.outPT_last⟪t⟫ (fun hh => h0 ((hcond0_0 _).mp hh)) ((hcond0_1 _).mpr h1) (iblk m c 0 t) (iblk m c 1 t)
        (outsAt0 m c (t.val - 1) (Nat.lt_of_le_of_lt (Nat.sub_le _ _) t.isLt)).2.2.2.2.2.1
        (outsAt0 m c (t.val - 1) (Nat.lt_of_le_of_lt (Nat.sub_le _ _) t.isLt)).2.2.2.2.2.2.1
        (outsAt0 m c (t.val - 1) (Nat.lt_of_le_of_lt (Nat.sub_le _ _) t.isLt)).2.2.2.2.2.2.2.1
        (outsAt0 m c (t.val - 1) (Nat.lt_of_le_of_lt (Nat.sub_le _ _) t.isLt)).2.2.2.2.2.2.2.2.1
        (outsAt0 m c (t.val - 1) (Nat.lt_of_le_of_lt (Nat.sub_le _ _) t.isLt)).2.2.2.2.2.2.2.2.2).trans
    (Pieces.sumPT_last⟪t⟫ (fun hh => h0 ((hcond0_0 _).mp hh)) ((hcond0_1 _).mpr h1) (iblk m c 0 t) (iblk m c 1 t)
        (outsAt0 m c (t.val - 1) (Nat.lt_of_le_of_lt (Nat.sub_le _ _) t.isLt)).2.2.2.2.2.1
        (outsAt0 m c (t.val - 1) (Nat.lt_of_le_of_lt (Nat.sub_le _ _) t.isLt)).2.2.2.2.2.2.1
        (outsAt0 m c (t.val - 1) (Nat.lt_of_le_of_lt (Nat.sub_le _ _) t.isLt)).2.2.2.2.2.2.2.1
        (outsAt0 m c (t.val - 1) (Nat.lt_of_le_of_lt (Nat.sub_le _ _) t.isLt)).2.2.2.2.2.2.2.2.1
        (outsAt0 m c (t.val - 1) (Nat.lt_of_le_of_lt (Nat.sub_le _ _) t.isLt)).2.2.2.2.2.2.2.2.2).symm

end Accumulators

end Cert.KernelIdeal.Fold

end
-- ==== Proof.Moments.lean ====
/-
  Column moments over the extended reals.

  For one column of finite entries the one-pass and the two-pass forms of the population variance and covariance
  are the same number: with μ = (∑ x) / N and N the number of rows,
      (∑ (x − μ)²) / N = (∑ x²) / N − μ²          and          (∑ (y − ν)(x − μ)) / N = (∑ x·y) / N − μ·ν.
  The left sides are sums of squares (resp. products) of centred entries; the right sides are what a single
  streaming pass accumulates. Both identities expand the product and use ∑ x = N·μ; they need distributivity, so they
  are proved for REAL entries and carried to the extended reals through the coercion. The variance is a mean of
  squares, hence nonnegative, so clamping it below at zero changes nothing.
-/
import Idealize.ShloMosaic.PureOps.Ideal
import Idealize.ShloMosaic.PureOps.Ideal.Laws
import Mathlib.Algebra.BigOperators.Field
import Mathlib.Tactic.FieldSimp
import Mathlib.Tactic.Ring
import Mathlib.Tactic.Positivity

noncomputable section

namespace Cert.Moments

open Idealize.ShloMosaic

/-- The row count as the programs spell it: the f32 word of 16384.0 denotes the real 16384. -/
theorem ofBits_rows : Ideal.ofBits .f32 0x46800000#32 = ((16384 : ℝ) : EReal) := by
  simp [Ideal.ofBits, Ideal.ieee, -EReal.coe_mul]; norm_num

/-- A finite sum of reals, read in the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The quotient of a real by the row count, in the extended reals, is the real quotient. -/
theorem div_rows (a : ℝ) : Ideal.div (a : EReal) (Ideal.ofBits .f32 0x46800000#32) = ((a / 16384 : ℝ) : EReal) := by
  rw [ofBits_rows, Ideal.div_coe (by norm_num : (16384 : ℝ) ≠ 0), ← EReal.coe_mul]
  congr 1; ring

section Real

variable {ι : Type*} [Fintype ι]

/-- One-pass variance: the mean of the centred squares is the mean of the squares less the squared mean. -/
theorem var_real (x : ι → ℝ) (N : ℝ) (hN : (Fintype.card ι : ℝ) = N) (h0 : N ≠ 0) :
    (∑ i, (x i - (∑ i, x i) / N) * (x i - (∑ i, x i) / N)) / N
      = (∑ i, x i * x i) / N - ((∑ i, x i) / N) * ((∑ i, x i) / N) := by
  set S := ∑ i, x i with hS
  have e : ∑ i, (x i - S / N) * (x i - S / N) = (∑ i, x i * x i) - 2 * (S / N) * S + N * ((S / N) * (S / N)) := by
    have : ∀ i, (x i - S / N) * (x i - S / N) = x i * x i - 2 * (S / N) * x i + (S / N) * (S / N) := fun i => by ring
    simp only [this, Finset.sum_add_distrib, Finset.sum_sub_distrib, ← Finset.mul_sum, Finset.sum_const,
      Finset.card_univ, nsmul_eq_mul, hN, ← hS]
    ring
  rw [e]; field_simp; ring

/-- One-pass covariance: the mean of the centred products is the mean of the products less the product of the means. -/
theorem cov_real (x y : ι → ℝ) (N : ℝ) (hN : (Fintype.card ι : ℝ) = N) (h0 : N ≠ 0) :
    (∑ i, (y i - (∑ i, y i) / N) * (x i - (∑ i, x i) / N)) / N
      = (∑ i, x i * y i) / N - ((∑ i, x i) / N) * ((∑ i, y i) / N) := by
  set S := ∑ i, x i with hS
  set T := ∑ i, y i with hT
  have e : ∑ i, (y i - T / N) * (x i - S / N)
      = (∑ i, x i * y i) - (S / N) * T - (T / N) * S + N * ((T / N) * (S / N)) := by
    have : ∀ i, (y i - T / N) * (x i - S / N) = x i * y i - (S / N) * y i - (T / N) * x i + (T / N) * (S / N) :=
      fun i => by ring
    simp only [this, Finset.sum_add_distrib, Finset.sum_sub_distrib, ← Finset.mul_sum, Finset.sum_const,
      Finset.card_univ, nsmul_eq_mul, hN, ← hS, ← hT]
    ring
  rw [e]; field_simp; ring

/-- A mean of squares over a positive count is nonnegative. -/
theorem var_nonneg (x : ι → ℝ) (N : ℝ) (hpos : 0 < N) (μ : ℝ) : 0 ≤ (∑ i, (x i - μ) * (x i - μ)) / N :=
  div_nonneg (Finset.sum_nonneg fun i _ => mul_self_nonneg _) hpos.le

end Real

/-! ## One column of 16384 entries in the extended reals -/

/-- The column's mean as both programs compute it: the sum over the rows divided by the row count's word. -/
def mean (x : Fin 16384 → EReal) : EReal := Ideal.div (∑ i, x i) (Ideal.ofBits .f32 0x46800000#32)

/-- Two-pass variance: the mean of the squares of the centred entries. -/
def varCentred (x : Fin 16384 → EReal) : EReal :=
  Ideal.div (∑ i, (x i - mean x) * (x i - mean x)) (Ideal.ofBits .f32 0x46800000#32)

/-- One-pass variance, clamped below at zero. -/
def varMoments (x : Fin 16384 → EReal) : EReal :=
  max (Ideal.div (∑ i, x i * x i) (Ideal.ofBits .f32 0x46800000#32) - mean x * mean x) 0

/-- Two-pass covariance: the mean of the products of the centred entries (second column's factor first). -/
def covCentred (y x : Fin 16384 → EReal) : EReal :=
  Ideal.div (∑ i, (y i - mean y) * (x i - mean x)) (Ideal.ofBits .f32 0x46800000#32)

/-- One-pass covariance. -/
def covMoments (x y : Fin 16384 → EReal) : EReal :=
  Ideal.div (∑ i, x i * y i) (Ideal.ofBits .f32 0x46800000#32) - mean x * mean y

/-- A column is finite when each entry is a real number. -/
def Finite (x : Fin 16384 → EReal) : Prop := ∀ i, ∃ r : ℝ, x i = (r : EReal)

theorem mean_coe (r : Fin 16384 → ℝ) : mean (fun i => (r i : EReal)) = (((∑ i, r i) / 16384 : ℝ) : EReal) := by
  unfold mean; rw [coe_sum, div_rows]

private theorem card_rows : ((Fintype.card (Fin 16384) : ℕ) : ℝ) = 16384 := by simp

/-- For a finite column the two variances agree. -/
theorem varCentred_eq_varMoments (x : Fin 16384 → EReal) (hx : Finite x) : varCentred x = varMoments x := by
  choose r hr using hx
  obtain rfl : x = fun i => (r i : EReal) := funext hr
  unfold varCentred varMoments
  rw [mean_coe]
  simp only [← EReal.coe_sub, ← EReal.coe_mul]
  rw [coe_sum, coe_sum, div_rows, div_rows, ← EReal.coe_sub]
  have hv := var_real r 16384 card_rows (by norm_num)
  have hn := var_nonneg r 16384 (by norm_num) ((∑ i, r i) / 16384)
  rw [hv] at hn
  rw [max_eq_left (EReal.coe_nonneg.mpr hn), hv]

/-- For finite columns the two covariances agree. -/
theorem covCentred_eq_covMoments (x y : Fin 16384 → EReal) (hx : Finite x) (hy : Finite y) :
    covCentred y x = covMoments x y := by
  choose r hr using hx
  choose s hs using hy
  obtain rfl : x = fun i => (r i : EReal) := funext hr
  obtain rfl : y = fun i => (s i : EReal) := funext hs
  unfold covCentred covMoments
  rw [mean_coe, mean_coe]
  simp only [← EReal.coe_sub, ← EReal.coe_mul]
  rw [coe_sum, coe_sum, div_rows, div_rows, ← EReal.coe_sub]
  congr 1
  exact cov_real r s 16384 card_rows (by norm_num)

end Cert.Moments

end
-- ==== Proof.Spec.lean ====
/-
  The loss both programs compute, as one formula over the extended reals.

  From two arrays `p`, `t` of 16384 rows and 4096 columns, for each column `j`:
    * a Pearson correlation  cov_j / (σ_j(p) · σ_j(t))  of the two columns (population moments), with the guard
      "replace the quotient by 0 where it is unordered with itself" — over the extended reals no number is, so the
      guard keeps the quotient;
    * a cosine similarity  (∑ p·t) / (max (√∑p²) ε · max (√∑t²) ε).
  The result is  (1 − mean_j correlation) + (1 − mean_j cosine).
  The correlation is written in its two forms: from centred entries (two passes over a column) and from the raw
  moments ∑x, ∑x², ∑xy (one pass); `Moments` shows the forms agree on finite columns.
-/
import proofs.«175954_j27161373180458_1_alg».proof.Proof.Moments
import Idealize.ShloMosaic.Lib.ValueIdx

noncomputable section

namespace Cert.Spec

open Idealize.ShloMosaic Idealize.ShloMosaic.ValueIdx Cert.Moments

/-- Column `j` of a 16384 × 4096 array, as a function of the row. -/
def col (x : (⟨2, ![16384, 4096]⟩ : Shape).Idx → EReal) (j : Fin 4096) : Fin 16384 → EReal := fun i => x (ix2 i j)

/-- Correlation of two columns from their centred entries (the second column's deviation is the first factor of the
    covariance, and its standard deviation the first factor of the denominator). -/
def corrCentred (p t : Fin 16384 → EReal) : EReal :=
  Ideal.div (covCentred t p) (Ideal.sqrt (varCentred t) * Ideal.sqrt (varCentred p))

/-- Correlation of two columns from their raw moments. -/
def corrMoments (p t : Fin 16384 → EReal) : EReal :=
  Ideal.div (covMoments p t) (Ideal.sqrt (varMoments p) * Ideal.sqrt (varMoments t))

/-- On finite columns the two forms of the correlation are one number: equal covariances, equal variances, and the
    product of the standard deviations taken in either order. -/
theorem corrCentred_eq_corrMoments (p t : Fin 16384 → EReal) (hp : Moments.Finite p) (ht : Moments.Finite t) :
    corrCentred p t = corrMoments p t := by
  unfold corrCentred corrMoments
  rw [covCentred_eq_covMoments p t hp ht, varCentred_eq_varMoments p hp, varCentred_eq_varMoments t ht, mul_comm]

/-- Cosine similarity of two columns, each norm clamped below at the f32 word of 1e-8. -/
def cosine (p t : Fin 16384 → EReal) : EReal :=
  Ideal.div (∑ i, p i * t i)
    (max (Ideal.sqrt (∑ i, p i * p i)) (Ideal.ofBits .f32 0x322BCC77#32)
      * max (Ideal.sqrt (∑ i, t i * t i)) (Ideal.ofBits .f32 0x322BCC77#32))

/-- The guard on a correlation: 0 where it differs from itself, else itself. -/
def guarded (x : EReal) : EReal := Scalar.select (Ideal.cmp .une x x) (Ideal.ofBits .f32 0x00000000#32) x

/-- The loss from the per-column correlations and cosines: (1 − their mean) + (1 − their mean), each mean a sum from
    the zero word divided by the word of 4096. -/
def loss (corr cos : Fin 4096 → EReal) : EReal :=
  (Ideal.ofBits .f32 0x3F800000#32
      - Ideal.div (Ideal.ofBits .f32 0x00000000#32 + ∑ j, guarded (corr j)) (Ideal.ofBits .f32 0x45800000#32))
    + (Ideal.ofBits .f32 0x3F800000#32
      - Ideal.div (Ideal.ofBits .f32 0x00000000#32 + ∑ j, cos j) (Ideal.ofBits .f32 0x45800000#32))

/-- The loss of two arrays through the centred form of the correlation. -/
def lossCentred (p t : (⟨2, ![16384, 4096]⟩ : Shape).Idx → EReal) : EReal :=
  loss (fun j => corrCentred (col p j) (col t j)) (fun j => cosine (col p j) (col t j))

/-- The loss of two arrays through the raw-moment form of the correlation. -/
def lossMoments (p t : (⟨2, ![16384, 4096]⟩ : Shape).Idx → EReal) : EReal :=
  loss (fun j => corrMoments (col p j) (col t j)) (fun j => cosine (col p j) (col t j))

/-- On arrays of finite entries the two losses are one number. -/
theorem lossCentred_eq_lossMoments (p t : (⟨2, ![16384, 4096]⟩ : Shape).Idx → EReal)
    (hp : ∀ i, ∃ r : ℝ, p i = (r : EReal)) (ht : ∀ i, ∃ r : ℝ, t i = (r : EReal)) :
    lossCentred p t = lossMoments p t := by
  unfold lossCentred lossMoments
  congr 2
  funext j
  exact corrCentred_eq_corrMoments _ _ (fun i => hp _) (fun i => ht _)

end Cert.Spec

end
-- ==== Proof.SumsSpec.lean ====
/-
  The loss from the five per-column sums.

  A single pass over the rows leaves, for each column, the sums ∑p, ∑t, ∑p², ∑t², ∑p·t. Mean, variance (clamped below
  at zero), covariance, correlation and cosine are then functions of those five numbers alone, and the raw-moment form of
  the loss is that function of the column sums of the two arrays.
-/
import proofs.«175954_j27161373180458_1_alg».proof.Proof.Spec

noncomputable section

namespace Cert.Spec

open Idealize.ShloMosaic Idealize.ShloMosaic.ValueIdx Cert.Moments

/-- The correlation of two columns from their five sums (row count: the word of 16384.0). -/
def corrOfSums (sp st sp2 st2 spt : EReal) : EReal :=
  Ideal.div
    (Ideal.div spt (Ideal.ofBits .f32 0x46800000#32)
      - Ideal.div sp (Ideal.ofBits .f32 0x46800000#32) * Ideal.div st (Ideal.ofBits .f32 0x46800000#32))
    (Ideal.sqrt (max (Ideal.div sp2 (Ideal.ofBits .f32 0x46800000#32)
          - Ideal.div sp (Ideal.ofBits .f32 0x46800000#32) * Ideal.div sp (Ideal.ofBits .f32 0x46800000#32)) 0)
      * Ideal.sqrt (max (Ideal.div st2 (Ideal.ofBits .f32 0x46800000#32)
          - Ideal.div st (Ideal.ofBits .f32 0x46800000#32) * Ideal.div st (Ideal.ofBits .f32 0x46800000#32)) 0))

/-- The cosine of two columns from their sums of squares and of products. -/
def cosOfSums (sp2 st2 spt : EReal) : EReal :=
  Ideal.div spt
    (max (Ideal.sqrt sp2) (Ideal.ofBits .f32 0x322BCC77#32) * max (Ideal.sqrt st2) (Ideal.ofBits .f32 0x322BCC77#32))

/-- The loss from the five sums of every column. -/
def lossOfSums (sp st sp2 st2 spt : Fin 4096 → EReal) : EReal :=
  loss (fun j => corrOfSums (sp j) (st j) (sp2 j) (st2 j) (spt j)) (fun j => cosOfSums (sp2 j) (st2 j) (spt j))

/-- The raw-moment loss of two arrays is the loss from their column sums. -/
theorem lossMoments_eq_lossOfSums (p t : (⟨2, ![16384, 4096]⟩ : Shape).Idx → EReal) :
    lossMoments p t
      = lossOfSums (fun j => ∑ i, col p j i) (fun j => ∑ i, col t j i) (fun j => ∑ i, col p j i * col p j i)
          (fun j => ∑ i, col t j i * col t j i) (fun j => ∑ i, col p j i * col t j i) := rfl

end Cert.Spec

end
-- ==== Proof.KernelTail.lean ====
/-
  The value of the kernel program's host tail.

  After its one pass over the rows the kernel program holds, for every column, the five sums ∑p, ∑t, ∑p², ∑t², ∑p·t, each as
  a 1 × 4096 array. The operations that follow flatten each to a vector over the columns, divide by the row count's word,
  form the covariance and the two variances from the raw moments (each variance clamped below at zero), take square roots,
  the quotient, the guard, the cosine from the three sums of products, and two means over the columns. Read at its one
  index, the scalar they end at is the loss as a function of the five sums of every column.
-/
import proofs.«175954_j27161373180458_1_alg».proof.Proof.Gen.KernelIdeal.Frame.Runs
import proofs.«175954_j27161373180458_1_alg».proof.Proof.SumsSpec
import Idealize.ShloMosaic.Lib.StableHlo.Run
import Idealize.ShloMosaic.Lib.ValueIdx
import Idealize.ShloMosaic.Lib.ValueIdxRank1
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem

namespace Cert.KernelIdeal.Tail

open Cert.KernelIdeal Cert.KernelIdeal.Gen Idealize.ShloMosaic.ValueIdx Cert.Spec

/-- A per-column sum as the region leaves it: one row of 4096 entries. -/
abbrev Row : Type := FVec Ideal S1x4096 .f32
/-- A vector over the columns. -/
abbrev Col : Type := FVec Ideal S4096 .f32
/-- A scalar. -/
abbrev Scal : Type := FVec Ideal S_ .f32

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The tail's stages, as functions of the five rows -/

/-- A row flattened to a vector over the columns. -/
def flat (s : Row) : Col := shapeCast S4096 s shapeCasts_S1x4096_S4096
/-- A vector divided entrywise by the row count's word. -/
def perRow (v : Col) : Col := Host.divf v (broadcastInDim S4096 ![] bcast_S_S4096 (constant S_ .f32 0x46800000#32))
/-- The one-pass variance of every column from its sum and its sum of squares, clamped below at the zero word. -/
def varVec (s s2 : Row) : Col :=
  maximumf (subf (perRow (flat s2)) (mulf (perRow (flat s)) (perRow (flat s))))
    (broadcastInDim S4096 ![] bcast_S_S4096 (constant S_ .f32 0x00000000#32))
/-- The correlation of every column from its five sums. -/
def corrVec (s0 s1 s2 s3 s4 : Row) : Col :=
  Host.divf (subf (perRow (flat s4)) (mulf (perRow (flat s0)) (perRow (flat s1))))
    (mulf (Host.sqrt (varVec s0 s2)) (Host.sqrt (varVec s1 s3)))
/-- The guard on every column's correlation. -/
def guardVec (v : Col) : Col :=
  select (cmpf .une v v) (broadcastInDim S4096 ![] bcast_S_S4096 (constant S_ .f32 0x00000000#32)) v
/-- One minus the mean over the columns, the sum started from the zero word. -/
def oneMinusMean (v : Col) : Scal :=
  subf (constant S_ .f32 0x3F800000#32)
    (Host.divf (Host.reduceAdd v (constant S_ .f32 0x00000000#32) reducesTo_S4096_S_d0 h_S_) (constant S_ .f32 0x45800000#32))
/-- The clamped norm of every column from its sum of squares. -/
def normVec (s : Row) : Col :=
  maximumf (Host.sqrt (flat s)) (broadcastInDim S4096 ![] bcast_S_S4096 (constant S_ .f32 0x322BCC77#32))
/-- The cosine of every column from its two sums of squares and its sum of products. -/
def cosVec (s2 s3 s4 : Row) : Col := Host.divf (flat s4) (mulf (normVec s2) (normVec s3))
/-- The tail: the two terms added. -/
def tail (s0 s1 s2 s3 s4 : Row) : Scal :=
  addf (oneMinusMean (guardVec (corrVec s0 s1 s2 s3 s4))) (oneMinusMean (cosVec s2 s3 s4))

/-! ## Each stage at an index -/

/-- The flattened row at column j is the row's entry (0, j): both have row-major position j. -/
theorem flat_apply (s : Row) (j : Fin 4096) : flat s (ix1 j) = s (ix2 (0 : Fin 1) j) := by
  unfold flat
  refine shapeCast_apply s shapeCasts_S1x4096_S4096 (ix1 j) (ix2 (0 : Fin 1) j) ?_
  rw [Shape.rowMajor_val_two, Shape.rowMajor_val_one]
  show (0 : Nat) * 4096 + j.val = j.val
  omega

/-- A scalar word broadcast over the columns reads that word everywhere. -/
theorem splat_apply (w : BitVec 32) (i : S4096.Idx) :
    broadcastInDim S4096 ![] bcast_S_S4096 (constant (F := Ideal) S_ .f32 w) i = Ideal.ofBits .f32 w :=
  broadcastInDim_apply _ bcast_S_S4096 _ i ix0 (fun a => a.elim0)

theorem perRow_apply (v : Col) (i : S4096.Idx) : perRow v i = Ideal.div (v i) (Ideal.ofBits .f32 0x46800000#32) := by
  show Ideal.div (v i) (broadcastInDim S4096 ![] bcast_S_S4096 (constant (F := Ideal) S_ .f32 0x46800000#32) i) = _
  rw [splat_apply]

/-- The clamped variance at column j, the zero word read as 0. -/
theorem varVec_apply (s s2 : Row) (j : Fin 4096) :
    varVec s s2 (ix1 j)
      = max (Ideal.div (s2 (ix2 (0 : Fin 1) j)) (Ideal.ofBits .f32 0x46800000#32)
          - Ideal.div (s (ix2 (0 : Fin 1) j)) (Ideal.ofBits .f32 0x46800000#32)
            * Ideal.div (s (ix2 (0 : Fin 1) j)) (Ideal.ofBits .f32 0x46800000#32)) 0 := by
  show max (perRow (flat s2) (ix1 j) - perRow (flat s) (ix1 j) * perRow (flat s) (ix1 j))
      (broadcastInDim S4096 ![] bcast_S_S4096 (constant (F := Ideal) S_ .f32 0x00000000#32) (ix1 j)) = _
  rw [splat_apply, perRow_apply, perRow_apply, flat_apply, flat_apply, Ideal.ofBits_zero_f32]

/-- The correlation at column j is the correlation of that column's five sums. -/
theorem corrVec_apply (s0 s1 s2 s3 s4 : Row) (j : Fin 4096) :
    corrVec s0 s1 s2 s3 s4 (ix1 j)
      = corrOfSums (s0 (ix2 (0 : Fin 1) j)) (s1 (ix2 (0 : Fin 1) j)) (s2 (ix2 (0 : Fin 1) j)) (s3 (ix2 (0 : Fin 1) j))
          (s4 (ix2 (0 : Fin 1) j)) := by
  show Ideal.div (perRow (flat s4) (ix1 j) - perRow (flat s0) (ix1 j) * perRow (flat s1) (ix1 j))
      (Ideal.sqrt (varVec s0 s2 (ix1 j)) * Ideal.sqrt (varVec s1 s3 (ix1 j))) = _
  rw [varVec_apply, varVec_apply, perRow_apply, perRow_apply, perRow_apply, flat_apply, flat_apply, flat_apply]
  rfl

/-- The guard at an index is the guard of the entry. -/
theorem guardVec_apply (v : Col) (i : S4096.Idx) : guardVec v i = guarded (v i) := by
  show Scalar.select (Ideal.cmp .une (v i) (v i))
      (broadcastInDim S4096 ![] bcast_S_S4096 (constant (F := Ideal) S_ .f32 0x00000000#32) i) (v i) = _
  rw [splat_apply]
  rfl

/-- One minus the mean, read at the scalar's one index: the sum over the columns keeps its zero word. -/
theorem oneMinusMean_apply (v : Col) (i : S_.Idx) :
    oneMinusMean v i
      = Ideal.ofBits .f32 0x3F800000#32
        - Ideal.div (Ideal.ofBits .f32 0x00000000#32 + ∑ j : Fin 4096, v (ix1 j)) (Ideal.ofBits .f32 0x45800000#32) := by
  have e : Host.reduceAdd v (constant (F := Ideal) S_ .f32 0x00000000#32) reducesTo_S4096_S_d0 h_S_ i
      = Ideal.ofBits .f32 0x00000000#32 + ∑ j : S4096.Idx, v j := by
    simp only [Host.reduceAdd, Ideal.hostReduceAdd_def]
    exact Ideal.hostReduceAdd_total reducesTo_S4096_S_d0 (fun b => b.elim0) v _ i
  show Ideal.ofBits .f32 0x3F800000#32
      - Ideal.div (Host.reduceAdd v (constant (F := Ideal) S_ .f32 0x00000000#32) reducesTo_S4096_S_d0 h_S_ i)
          (Ideal.ofBits .f32 0x45800000#32) = _
  rw [e, sum_idx1]

/-- The clamped norm at column j. -/
theorem normVec_apply (s : Row) (j : Fin 4096) :
    normVec s (ix1 j) = max (Ideal.sqrt (s (ix2 (0 : Fin 1) j))) (Ideal.ofBits .f32 0x322BCC77#32) := by
  show max (Ideal.sqrt (flat s (ix1 j)))
      (broadcastInDim S4096 ![] bcast_S_S4096 (constant (F := Ideal) S_ .f32 0x322BCC77#32) (ix1 j)) = _
  rw [splat_apply, flat_apply]

/-- The cosine at column j is the cosine of that column's three sums. -/
theorem cosVec_apply (s2 s3 s4 : Row) (j : Fin 4096) :
    cosVec s2 s3 s4 (ix1 j)
      = cosOfSums (s2 (ix2 (0 : Fin 1) j)) (s3 (ix2 (0 : Fin 1) j)) (s4 (ix2 (0 : Fin 1) j)) := by
  show Ideal.div (flat s4 (ix1 j)) (normVec s2 (ix1 j) * normVec s3 (ix1 j)) = _
  rw [normVec_apply, normVec_apply, flat_apply]
  rfl

/-- The tail at its one index is the loss from the five sums of every column. -/
theorem tail_apply (s0 s1 s2 s3 s4 : Row) (i : S_.Idx) :
    tail s0 s1 s2 s3 s4 i
      = lossOfSums (fun j => s0 (ix2 (0 : Fin 1) j)) (fun j => s1 (ix2 (0 : Fin 1) j)) (fun j => s2 (ix2 (0 : Fin 1) j))
          (fun j => s3 (ix2 (0 : Fin 1) j)) (fun j => s4 (ix2 (0 : Fin 1) j)) := by
  show oneMinusMean (guardVec (corrVec s0 s1 s2 s3 s4)) i + oneMinusMean (cosVec s2 s3 s4) i = _
  rw [oneMinusMean_apply, oneMinusMean_apply]
  simp only [guardVec_apply, corrVec_apply, cosVec_apply]
  rfl

/-! ## The operations' composed term is the tail of the five rows -/

set_option maxHeartbeats 4000000 in
/-- Each operation's result substituted into the next, from any contents of the buffers. -/
theorem after_eq_tail (W : Valuation τ sig (Elt Ideal)) :
    StableHlo.after (List.flatten [(hostOps1 : List (HloOp τ sig (Elt Ideal))), hostOps1_1, hostOps1_2]) W (Proc.devRef .tc main_v47)
      = tail (W (Proc.devRef .tc main_v0_0)) (W (Proc.devRef .tc main_v0_1)) (W (Proc.devRef .tc main_v0_2))
          (W (Proc.devRef .tc main_v0_3)) (W (Proc.devRef .tc main_v0_4)) := by
  simp only [hostOps1, hostOps1_1, hostOps1_2, List.flatten_cons, List.flatten_nil, List.append_nil, List.cons_append,
    List.nil_append]
  after_results_simp
  rfl

/-! ## The result -/

/-- The operations after the region, run on any contents of the buffers, leave in the result the loss as a function of
    the five per-column sums those contents hold. -/
theorem tail_value (W : Valuation τ sig (Elt Ideal)) :
    StableHlo.after (List.flatten [(hostOps1 : List (HloOp τ sig (Elt Ideal))), hostOps1_1, hostOps1_2]) W (Proc.devRef .tc main_v47)
      = (fun _ => Cert.Spec.lossOfSums
          (fun j => W (Proc.devRef .tc main_v0_0) (ValueIdx.ix2 (0 : Fin 1) j))
          (fun j => W (Proc.devRef .tc main_v0_1) (ValueIdx.ix2 (0 : Fin 1) j))
          (fun j => W (Proc.devRef .tc main_v0_2) (ValueIdx.ix2 (0 : Fin 1) j))
          (fun j => W (Proc.devRef .tc main_v0_3) (ValueIdx.ix2 (0 : Fin 1) j))
          (fun j => W (Proc.devRef .tc main_v0_4) (ValueIdx.ix2 (0 : Fin 1) j))) :=
  (after_eq_tail W).trans (funext fun i => tail_apply _ _ _ _ _ i)

end Cert.KernelIdeal.Tail

end
-- ==== Proof.KernelValue.lean ====
/-
  The kernel's results.

  Each of the five result rows (1 × 4096) is written back once per column block, at the block's last row block, from the
  accumulator that by then holds the sum over all 16384 rows; the eight column blocks tile the row. So the five rows are
  the column sums of p, t, p², t², p·t, and the scalar the host lines compute from them is the raw-moment loss of the two
  arrays.
-/
import proofs.«175954_j27161373180458_1_alg».proof.Proof.FrameKernelIdeal
import proofs.«175954_j27161373180458_1_alg».proof.Proof.Fold
import proofs.«175954_j27161373180458_1_alg».proof.Proof.KernelTail
import proofs.«175954_j27161373180458_1_alg».proof.Proof.SumsSpec
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.Sums

open Cert.KernelIdeal Cert.KernelIdeal.Gen Cert.KernelIdeal.GenP Cert.KernelIdeal.Fold

variable (m : (ℓ : Loc nD τ sig) → Buf (Elt Ideal) ℓ) (ρ : Dev nD → PrngReg)

/-- The row of column sums of `f p t` over all rows of the two arrays. -/
def colSums (f : EReal → EReal → EReal) (c : Dev nD) : Vec Ideal S1x4096 .f32 :=
  fun i => ∑ R : Fin 16384, f (parr m c (ix2 R ⟨(i 1).val, idx2_lt1 i⟩)) (tarr m c (ix2 R ⟨(i 1).val, idx2_lt1 i⟩))

/-- The row at an index whose column is known. -/
theorem colSums_at (f : EReal → EReal → EReal) (c : Dev nD) (i : S1x4096.Idx) (C : Fin 4096) (h : (i 1).val = C.val) :
    ∑ R : Fin 16384, f (parr m c (ix2 R C)) (tarr m c (ix2 R C)) = colSums m f c i := by
  unfold colSums
  have : (⟨(i 1).val, idx2_lt1 i⟩ : Fin 4096) = C := Fin.ext h
  rw [this]

/-- An accumulator's entry at the end of a run of sixteen points: the sum over every row, in its column. -/
theorem acc_total (f : EReal → EReal → EReal) (c : Dev nD) (s : (n : ℕ) → n < cfg0.N → Vec Ideal S1x512 .f32)
    (h0 : ∀ (n : ℕ) (h : n < cfg0.N), n % 16 = 0 → s n h = upd f (pblk m c ⟨n, h⟩) (tblk m c ⟨n, h⟩) zeroRow)
    (hs : ∀ (n : ℕ) (h : n + 1 < cfg0.N), ¬(n + 1) % 16 = 0 →
      s (n + 1) h = upd f (pblk m c ⟨n + 1, h⟩) (tblk m c ⟨n + 1, h⟩) (s n (Nat.lt_of_succ_lt h)))
    (t : Fin cfg0.N) (ht : t.val % 16 = 15) (u : Fin 1) (q : Fin 512) :
    s t.val t.isLt (ix2 u q)
      = ∑ R : Fin 16384, f (parr m c (ix2 R ⟨512 * (t.val / 16) + q.val, by have := lt128 t; omega⟩))
          (tarr m c (ix2 R ⟨512 * (t.val / 16) + q.val, by have := lt128 t; omega⟩)) :=
  (run_total m f c s h0 hs t ht (ix2 u q)).trans (run_column m f c t q)

/-- The output windows' block indices at point t: row block 0, column block t div 16. -/
theorem out_index : ∀ t : Fin cfg0.N,
    win0_2.index t (0 : Fin 2) = 0 ∧ win0_2.index t (1 : Fin 2) = t.val / 16
    ∧ win0_3.index t (0 : Fin 2) = 0 ∧ win0_3.index t (1 : Fin 2) = t.val / 16
    ∧ win0_4.index t (0 : Fin 2) = 0 ∧ win0_4.index t (1 : Fin 2) = t.val / 16
    ∧ win0_5.index t (0 : Fin 2) = 0 ∧ win0_5.index t (1 : Fin 2) = t.val / 16
    ∧ win0_6.index t (0 : Fin 2) = 0 ∧ win0_6.index t (1 : Fin 2) = t.val / 16 :=
  (by decide +kernel : ∀ t : Fin grid0.N, _)

/-! ## What each write-back writes -/

theorem flushedP (c : Dev nD) (t : Fin cfg0.N) (hf : (cfg0.win 2).flush t = true) :
    (dats m 0 c).flushed 2 t = ((cfg0.win 2).blk t).view.read (Elt Ideal) (colSums m (fun u _ => u) c) := by
  have h1 : t.val % 16 = 15 := (flush0_2 t).mp hf
  have h0 : ¬t.val % 16 = 0 := by omega
  have e1 : win0_2.index t (1 : Fin 2) = t.val / 16 := (out_index t).2.1
  show (cfg0.win 2).cut (grid0.coords t) ((dats m 0 c).after 2 t) = _
  rw [after0_2, outP_eq_acc m c t h0 h1]
  show accP m c t.val t.isLt = _
  funext j
  obtain ⟨u, q, rfl⟩ : ∃ (u : Fin 1) (q : Fin 512), j = ix2 u q := ⟨j 0, j 1, eq_ix2 j⟩
  rw [acc_total m (fun u _ => u) c (accP m c) (accP_reset m c) (accP_step m c) t h1 u q]
  generalize hG : colSums m (fun u _ => u) c = G
  rw [View.read_apply]
  show _ = G _
  rw [← hG]
  exact colSums_at m (fun u _ => u) c _ ⟨512 * (t.val / 16) + q.val, by have := lt128 t; omega⟩
    (by show win0_2.index t (1 : Fin 2) * 512 + 1 * q.val = 512 * (t.val / 16) + q.val; rw [e1]; omega)

theorem flushedT (c : Dev nD) (t : Fin cfg0.N) (hf : (cfg0.win 3).flush t = true) :
    (dats m 0 c).flushed 3 t = ((cfg0.win 3).blk t).view.read (Elt Ideal) (colSums m (fun _ v => v) c) := by
  have h1 : t.val % 16 = 15 := (flush0_3 t).mp hf
  have h0 : ¬t.val % 16 = 0 := by omega
  have e1 : win0_3.index t (1 : Fin 2) = t.val / 16 := (out_index t).2.2.2.1
  show (cfg0.win 3).cut (grid0.coords t) ((dats m 0 c).after 3 t) = _
  rw [after0_3, outT_eq_acc m c t h0 h1]
  show accT m c t.val t.isLt = _
  funext j
  obtain ⟨u, q, rfl⟩ : ∃ (u : Fin 1) (q : Fin 512), j = ix2 u q := ⟨j 0, j 1, eq_ix2 j⟩
  rw [acc_total m (fun _ v => v) c (accT m c) (accT_reset m c) (accT_step m c) t h1 u q]
  generalize hG : colSums m (fun _ v => v) c = G
  rw [View.read_apply]
  show _ = G _
  rw [← hG]
  exact colSums_at m (fun _ v => v) c _ ⟨512 * (t.val / 16) + q.val, by have := lt128 t; omega⟩
    (by show win0_3.index t (1 : Fin 2) * 512 + 1 * q.val = 512 * (t.val / 16) + q.val; rw [e1]; omega)

theorem flushedPP (c : Dev nD) (t : Fin cfg0.N) (hf : (cfg0.win 4).flush t = true) :
    (dats m 0 c).flushed 4 t = ((cfg0.win 4).blk t).view.read (Elt Ideal) (colSums m (fun u _ => u * u) c) := by
  have h1 : t.val % 16 = 15 := (flush0_4 t).mp hf
  have h0 : ¬t.val % 16 = 0 := by omega
  have e1 : win0_4.index t (1 : Fin 2) = t.val / 16 := (out_index t).2.2.2.2.2.1
  show (cfg0.win 4).cut (grid0.coords t) ((dats m 0 c).after 4 t) = _
  rw [after0_4, outPP_eq_acc m c t h0 h1]
  show accPP m c t.val t.isLt = _
  funext j
  obtain ⟨u, q, rfl⟩ : ∃ (u : Fin 1) (q : Fin 512), j = ix2 u q := ⟨j 0, j 1, eq_ix2 j⟩
  rw [acc_total m (fun u _ => u * u) c (accPP m c) (accPP_reset m c) (accPP_step m c) t h1 u q]
  generalize hG : colSums m (fun u _ => u * u) c = G
  rw [View.read_apply]
  show _ = G _
  rw [← hG]
  exact colSums_at m (fun u _ => u * u) c _ ⟨512 * (t.val / 16) + q.val, by have := lt128 t; omega⟩
    (by show win0_4.index t (1 : Fin 2) * 512 + 1 * q.val = 512 * (t.val / 16) + q.val; rw [e1]; omega)

theorem flushedTT (c : Dev nD) (t : Fin cfg0.N) (hf : (cfg0.win 5).flush t = true) :
    (dats m 0 c).flushed 5 t = ((cfg0.win 5).blk t).view.read (Elt Ideal) (colSums m (fun _ v => v * v) c) := by
  have h1 : t.val % 16 = 15 := (flush0_5 t).mp hf
  have h0 : ¬t.val % 16 = 0 := by omega
  have e1 : win0_5.index t (1 : Fin 2) = t.val / 16 := (out_index t).2.2.2.2.2.2.2.1
  show (cfg0.win 5).cut (grid0.coords t) ((dats m 0 c).after 5 t) = _
  rw [after0_5, outTT_eq_acc m c t h0 h1]
  show accTT m c t.val t.isLt = _
  funext j
  obtain ⟨u, q, rfl⟩ : ∃ (u : Fin 1) (q : Fin 512), j = ix2 u q := ⟨j 0, j 1, eq_ix2 j⟩
  rw [acc_total m (fun _ v => v * v) c (accTT m c) (accTT_reset m c) (accTT_step m c) t h1 u q]
  generalize hG : colSums m (fun _ v => v * v) c = G
  rw [View.read_apply]
  show _ = G _
  rw [← hG]
  exact colSums_at m (fun _ v => v * v) c _ ⟨512 * (t.val / 16) + q.val, by have := lt128 t; omega⟩
    (by show win0_5.index t (1 : Fin 2) * 512 + 1 * q.val = 512 * (t.val / 16) + q.val; rw [e1]; omega)

theorem flushedPT (c : Dev nD) (t : Fin cfg0.N) (hf : (cfg0.win 6).flush t = true) :
    (dats m 0 c).flushed 6 t = ((cfg0.win 6).blk t).view.read (Elt Ideal) (colSums m (fun u v => u * v) c) := by
  have h1 : t.val % 16 = 15 := (flush0_6 t).mp hf
  have h0 : ¬t.val % 16 = 0 := by omega
  have e1 : win0_6.index t (1 : Fin 2) = t.val / 16 := (out_index t).2.2.2.2.2.2.2.2.2
  show (cfg0.win 6).cut (grid0.coords t) ((dats m 0 c).after 6 t) = _
  rw [after0_6, outPT_eq_acc m c t h0 h1]
  show accPT m c t.val t.isLt = _
  funext j
  obtain ⟨u, q, rfl⟩ : ∃ (u : Fin 1) (q : Fin 512), j = ix2 u q := ⟨j 0, j 1, eq_ix2 j⟩
  rw [acc_total m (fun u v => u * v) c (accPT m c) (accPT_reset m c) (accPT_step m c) t h1 u q]
  generalize hG : colSums m (fun u v => u * v) c = G
  rw [View.read_apply]
  show _ = G _
  rw [← hG]
  exact colSums_at m (fun u v => u * v) c _ ⟨512 * (t.val / 16) + q.val, by have := lt128 t; omega⟩
    (by show win0_6.index t (1 : Fin 2) * 512 + 1 * q.val = 512 * (t.val / 16) + q.val; rw [e1]; omega)

/-! ## The blocks tile each row, so the rows end at the column sums -/

theorem mem_blkP (t : Fin cfg0.N) (i : S1x4096.Idx) :
    i ∈ ((cfg0.win 2).blk t).view.set ↔ ∀ a : Fin 2, win0_2.index t a * S1x512.size a ≤ (i a).val
      ∧ (i a).val < win0_2.index t a * S1x512.size a + S1x512.size a := by
  show i ∈ ((View.whole main_v0_0).slice (win0_2.rect t)).set ↔ _
  rw [View.set_slice_whole, Rect.mem_set_unit]
  exact Iff.rfl

theorem coverP (i : S1x4096.Idx) :
    ∃ t : Fin cfg0.N, (cfg0.win 2).flush t = true ∧ i ∈ ((cfg0.win 2).blk t).view.set := by
  have hi0 : (i 0).val < 1 := idx2_lt0 i
  have hi1 : (i 1).val < 4096 := idx2_lt1 i
  have ht : 16 * ((i 1).val / 512) + 15 < cfg0.N := lt_of_lt_of_eq (by omega : 16 * ((i 1).val / 512) + 15 < 128) N_0.symm
  refine ⟨⟨16 * ((i 1).val / 512) + 15, ht⟩, (flush0_2 _).mpr (by show (16 * ((i 1).val / 512) + 15) % 16 = 15; omega), ?_⟩
  rw [mem_blkP]
  have e0 : win0_2.index ⟨16 * ((i 1).val / 512) + 15, ht⟩ (0 : Fin 2) = 0 := (out_index _).1
  have e1 : win0_2.index ⟨16 * ((i 1).val / 512) + 15, ht⟩ (1 : Fin 2) = (16 * ((i 1).val / 512) + 15) / 16 := (out_index _).2.1
  intro a
  match a with
  | ⟨0, _⟩ =>
    show win0_2.index _ (0 : Fin 2) * 1 ≤ (i 0).val ∧ (i 0).val < win0_2.index _ (0 : Fin 2) * 1 + 1
    rw [e0]; omega
  | ⟨1, _⟩ =>
    show win0_2.index _ (1 : Fin 2) * 512 ≤ (i 1).val ∧ (i 1).val < win0_2.index _ (1 : Fin 2) * 512 + 512
    rw [e1]; omega

/-- The result row of window 2 after the run. -/
theorem finalP (c : Dev nD) : (dats m 0 c).arrAt 2 cfg0.N = colSums m (fun u _ => u) c :=
  (dats m 0 c).arrAt_eq_of_cover 2 (colSums m (fun u _ => u) c) (flushedP m c) coverP

theorem mem_blkT (t : Fin cfg0.N) (i : S1x4096.Idx) :
    i ∈ ((cfg0.win 3).blk t).view.set ↔ ∀ a : Fin 2, win0_3.index t a * S1x512.size a ≤ (i a).val
      ∧ (i a).val < win0_3.index t a * S1x512.size a + S1x512.size a := by
  show i ∈ ((View.whole main_v0_1).slice (win0_3.rect t)).set ↔ _
  rw [View.set_slice_whole, Rect.mem_set_unit]
  exact Iff.rfl

theorem coverT (i : S1x4096.Idx) :
    ∃ t : Fin cfg0.N, (cfg0.win 3).flush t = true ∧ i ∈ ((cfg0.win 3).blk t).view.set := by
  have hi0 : (i 0).val < 1 := idx2_lt0 i
  have hi1 : (i 1).val < 4096 := idx2_lt1 i
  have ht : 16 * ((i 1).val / 512) + 15 < cfg0.N := lt_of_lt_of_eq (by omega : 16 * ((i 1).val / 512) + 15 < 128) N_0.symm
  refine ⟨⟨16 * ((i 1).val / 512) + 15, ht⟩, (flush0_3 _).mpr (by show (16 * ((i 1).val / 512) + 15) % 16 = 15; omega), ?_⟩
  rw [mem_blkT]
  have e0 : win0_3.index ⟨16 * ((i 1).val / 512) + 15, ht⟩ (0 : Fin 2) = 0 := (out_index _).2.2.1
  have e1 : win0_3.index ⟨16 * ((i 1).val / 512) + 15, ht⟩ (1 : Fin 2) = (16 * ((i 1).val / 512) + 15) / 16 := (out_index _).2.2.2.1
  intro a
  match a with
  | ⟨0, _⟩ =>
    show win0_3.index _ (0 : Fin 2) * 1 ≤ (i 0).val ∧ (i 0).val < win0_3.index _ (0 : Fin 2) * 1 + 1
    rw [e0]; omega
  | ⟨1, _⟩ =>
    show win0_3.index _ (1 : Fin 2) * 512 ≤ (i 1).val ∧ (i 1).val < win0_3.index _ (1 : Fin 2) * 512 + 512
    rw [e1]; omega

/-- The result row of window 3 after the run. -/
theorem finalT (c : Dev nD) : (dats m 0 c).arrAt 3 cfg0.N = colSums m (fun _ v => v) c :=
  (dats m 0 c).arrAt_eq_of_cover 3 (colSums m (fun _ v => v) c) (flushedT m c) coverT

theorem mem_blkPP (t : Fin cfg0.N) (i : S1x4096.Idx) :
    i ∈ ((cfg0.win 4).blk t).view.set ↔ ∀ a : Fin 2, win0_4.index t a * S1x512.size a ≤ (i a).val
      ∧ (i a).val < win0_4.index t a * S1x512.size a + S1x512.size a := by
  show i ∈ ((View.whole main_v0_2).slice (win0_4.rect t)).set ↔ _
  rw [View.set_slice_whole, Rect.mem_set_unit]
  exact Iff.rfl

theorem coverPP (i : S1x4096.Idx) :
    ∃ t : Fin cfg0.N, (cfg0.win 4).flush t = true ∧ i ∈ ((cfg0.win 4).blk t).view.set := by
  have hi0 : (i 0).val < 1 := idx2_lt0 i
  have hi1 : (i 1).val < 4096 := idx2_lt1 i
  have ht : 16 * ((i 1).val / 512) + 15 < cfg0.N := lt_of_lt_of_eq (by omega : 16 * ((i 1).val / 512) + 15 < 128) N_0.symm
  refine ⟨⟨16 * ((i 1).val / 512) + 15, ht⟩, (flush0_4 _).mpr (by show (16 * ((i 1).val / 512) + 15) % 16 = 15; omega), ?_⟩
  rw [mem_blkPP]
  have e0 : win0_4.index ⟨16 * ((i 1).val / 512) + 15, ht⟩ (0 : Fin 2) = 0 := (out_index _).2.2.2.2.1
  have e1 : win0_4.index ⟨16 * ((i 1).val / 512) + 15, ht⟩ (1 : Fin 2) = (16 * ((i 1).val / 512) + 15) / 16 := (out_index _).2.2.2.2.2.1
  intro a
  match a with
  | ⟨0, _⟩ =>
    show win0_4.index _ (0 : Fin 2) * 1 ≤ (i 0).val ∧ (i 0).val < win0_4.index _ (0 : Fin 2) * 1 + 1
    rw [e0]; omega
  | ⟨1, _⟩ =>
    show win0_4.index _ (1 : Fin 2) * 512 ≤ (i 1).val ∧ (i 1).val < win0_4.index _ (1 : Fin 2) * 512 + 512
    rw [e1]; omega

/-- The result row of window 4 after the run. -/
theorem finalPP (c : Dev nD) : (dats m 0 c).arrAt 4 cfg0.N = colSums m (fun u _ => u * u) c :=
  (dats m 0 c).arrAt_eq_of_cover 4 (colSums m (fun u _ => u * u) c) (flushedPP m c) coverPP

theorem mem_blkTT (t : Fin cfg0.N) (i : S1x4096.Idx) :
    i ∈ ((cfg0.win 5).blk t).view.set ↔ ∀ a : Fin 2, win0_5.index t a * S1x512.size a ≤ (i a).val
      ∧ (i a).val < win0_5.index t a * S1x512.size a + S1x512.size a := by
  show i ∈ ((View.whole main_v0_3).slice (win0_5.rect t)).set ↔ _
  rw [View.set_slice_whole, Rect.mem_set_unit]
  exact Iff.rfl

theorem coverTT (i : S1x4096.Idx) :
    ∃ t : Fin cfg0.N, (cfg0.win 5).flush t = true ∧ i ∈ ((cfg0.win 5).blk t).view.set := by
  have hi0 : (i 0).val < 1 := idx2_lt0 i
  have hi1 : (i 1).val < 4096 := idx2_lt1 i
  have ht : 16 * ((i 1).val / 512) + 15 < cfg0.N := lt_of_lt_of_eq (by omega : 16 * ((i 1).val / 512) + 15 < 128) N_0.symm
  refine ⟨⟨16 * ((i 1).val / 512) + 15, ht⟩, (flush0_5 _).mpr (by show (16 * ((i 1).val / 512) + 15) % 16 = 15; omega), ?_⟩
  rw [mem_blkTT]
  have e0 : win0_5.index ⟨16 * ((i 1).val / 512) + 15, ht⟩ (0 : Fin 2) = 0 := (out_index _).2.2.2.2.2.2.1
  have e1 : win0_5.index ⟨16 * ((i 1).val / 512) + 15, ht⟩ (1 : Fin 2) = (16 * ((i 1).val / 512) + 15) / 16 := (out_index _).2.2.2.2.2.2.2.1
  intro a
  match a with
  | ⟨0, _⟩ =>
    show win0_5.index _ (0 : Fin 2) * 1 ≤ (i 0).val ∧ (i 0).val < win0_5.index _ (0 : Fin 2) * 1 + 1
    rw [e0]; omega
  | ⟨1, _⟩ =>
    show win0_5.index _ (1 : Fin 2) * 512 ≤ (i 1).val ∧ (i 1).val < win0_5.index _ (1 : Fin 2) * 512 + 512
    rw [e1]; omega

/-- The result row of window 5 after the run. -/
theorem finalTT (c : Dev nD) : (dats m 0 c).arrAt 5 cfg0.N = colSums m (fun _ v => v * v) c :=
  (dats m 0 c).arrAt_eq_of_cover 5 (colSums m (fun _ v => v * v) c) (flushedTT m c) coverTT

theorem mem_blkPT (t : Fin cfg0.N) (i : S1x4096.Idx) :
    i ∈ ((cfg0.win 6).blk t).view.set ↔ ∀ a : Fin 2, win0_6.index t a * S1x512.size a ≤ (i a).val
      ∧ (i a).val < win0_6.index t a * S1x512.size a + S1x512.size a := by
  show i ∈ ((View.whole main_v0_4).slice (win0_6.rect t)).set ↔ _
  rw [View.set_slice_whole, Rect.mem_set_unit]
  exact Iff.rfl

theorem coverPT (i : S1x4096.Idx) :
    ∃ t : Fin cfg0.N, (cfg0.win 6).flush t = true ∧ i ∈ ((cfg0.win 6).blk t).view.set := by
  have hi0 : (i 0).val < 1 := idx2_lt0 i
  have hi1 : (i 1).val < 4096 := idx2_lt1 i
  have ht : 16 * ((i 1).val / 512) + 15 < cfg0.N := lt_of_lt_of_eq (by omega : 16 * ((i 1).val / 512) + 15 < 128) N_0.symm
  refine ⟨⟨16 * ((i 1).val / 512) + 15, ht⟩, (flush0_6 _).mpr (by show (16 * ((i 1).val / 512) + 15) % 16 = 15; omega), ?_⟩
  rw [mem_blkPT]
  have e0 : win0_6.index ⟨16 * ((i 1).val / 512) + 15, ht⟩ (0 : Fin 2) = 0 := (out_index _).2.2.2.2.2.2.2.2.1
  have e1 : win0_6.index ⟨16 * ((i 1).val / 512) + 15, ht⟩ (1 : Fin 2) = (16 * ((i 1).val / 512) + 15) / 16 := (out_index _).2.2.2.2.2.2.2.2.2
  intro a
  match a with
  | ⟨0, _⟩ =>
    show win0_6.index _ (0 : Fin 2) * 1 ≤ (i 0).val ∧ (i 0).val < win0_6.index _ (0 : Fin 2) * 1 + 1
    rw [e0]; omega
  | ⟨1, _⟩ =>
    show win0_6.index _ (1 : Fin 2) * 512 ≤ (i 1).val ∧ (i 1).val < win0_6.index _ (1 : Fin 2) * 512 + 512
    rw [e1]; omega

/-- The result row of window 6 after the run. -/
theorem finalPT (c : Dev nD) : (dats m 0 c).arrAt 6 cfg0.N = colSums m (fun u v => u * v) c :=
  (dats m 0 c).arrAt_eq_of_cover 6 (colSums m (fun u v => u * v) c) (flushedPT m c) coverPT

/-! ## The run, read -/

/-- The scalar result is no window's array, and is not scoped. -/
theorem result_mem_rest : main_v47 ∈ Pipeline.restRefs sig (cfgs 0).spec :=
  Pipeline.mem_restRefs_of main_v47 rfl (fun w => by fin_cases w <;> decide)

/-- The loss from the five result rows is the raw-moment loss of the two arrays as the region finds them. -/
theorem loss_of_rows (c : Dev nD) :
    Cert.Spec.lossOfSums
        (fun j => colSums m (fun u _ => u) c (ix2 (0 : Fin 1) j)) (fun j => colSums m (fun _ v => v) c (ix2 (0 : Fin 1) j))
        (fun j => colSums m (fun u _ => u * u) c (ix2 (0 : Fin 1) j)) (fun j => colSums m (fun _ v => v * v) c (ix2 (0 : Fin 1) j))
        (fun j => colSums m (fun u v => u * v) c (ix2 (0 : Fin 1) j))
      = Cert.Spec.lossMoments (parr m c) (tarr m c) :=
  (Cert.Spec.lossMoments_eq_lossOfSums (parr m c) (tarr m c)).symm

/-- Every weakly fair execution of the kernel's program terminates with the scalar result at the raw-moment loss of
    the two argument arrays, and the arguments unchanged. -/
theorem run_value : θ_run defs (onTc (τ := τ) (main (F := Ideal))) ⟨m, fun _ => 0, ρ⟩ (fun r => ∀ c : Dev nD,
      r.2.mem ((c.tc : Thread nD τ).loc main_v47)
          = (fun _ => Cert.Spec.lossMoments (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_main m ρ)
  · refine ((h c).2 main_v47 result_mem_rest).trans ?_
    unfold Pipeline.afterTail₀
    rw [Cert.KernelIdeal.Tail.tail_value]
    rw [Pipeline.withArrays_arr spec0 launch0.win.arr_inj c _ _ 2, Pipeline.withArrays_arr spec0 launch0.win.arr_inj c _ _ 3,
      Pipeline.withArrays_arr spec0 launch0.win.arr_inj c _ _ 4, Pipeline.withArrays_arr spec0 launch0.win.arr_inj c _ _ 5,
      Pipeline.withArrays_arr spec0 launch0.win.arr_inj c _ _ 6, finalP, finalT, finalPP, finalTT, finalPT, loss_of_rows]
    rfl
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.KernelIdeal.Sums

end
-- ==== Proof.RefValue.lean ====
/-
  The value of the reference program.

  The reference is a straight line of array operations: column sums, quotients by the row count, broadcasts of the
  column means back over the rows, the centred entries, their squares and products, the column sums of those, square
  roots, the guarded quotient, the cosine's three column sums, and two means over the columns. Read index by index,
  the scalar it ends at is the loss of the specification in its centred form: for every column the correlation of
  the centred entries and the clamped cosine, then (1 − mean) + (1 − mean).

  The reading goes column by column. For a column j of an array x the column sum at j is the sum over the rows r of
  x (r, j): the reduction's initial value is the zero word, which denotes 0 and drops out. Dividing by the row
  count's word gives the column's mean; broadcasting the means along the rows and subtracting gives, at (r, j), the
  entry less its column's mean. From there every later stage is a pointwise operation or another column sum, so each
  is read from the stages before it: the variances and the covariance as means of products of centred entries, the
  standard deviations as their square roots, the correlation as the quotient, the guard as the select on
  "differs from itself". The cosine's three sums are over the raw entries. The two outer sums over the columns keep
  their zero word, as the specification writes them.
-/
import proofs.«175954_j27161373180458_1_alg».proof.Proof.Gen.ReferenceIdeal.Run
import proofs.«175954_j27161373180458_1_alg».proof.Proof.Gen.ReferenceIdeal.Read
import proofs.«175954_j27161373180458_1_alg».proof.Proof.Spec
import Idealize.ShloMosaic.Lib.ValueIdx
import Idealize.ShloMosaic.Lib.ValueIdxRank1
import Idealize.ShloMosaic.Lib.Pipeline.Value
import Idealize.ShloMosaic.PureOps.Ideal.Laws
import Idealize.ShloMosaic.Lib.StableHlo.Run
import Idealize.ShloMosaic.Lib.ValueLayout

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx Cert.Spec Cert.Moments

/-- An array of the program's size, at the ideal values: a function from (row, column) to the extended reals. -/
abbrev Arr : Type := (⟨S16384x4096, .f32⟩ : BufTy).Contents (Elt Ideal)

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Which entry each column sum and each broadcast reads

A column sum at column j reads, for the summed coordinate k, the entry (k, j); the two-step broadcast of a
per-column vector reads, at (r, j), the vector at j. -/

theorem idx_v0 (j : Fin 4096) (k : Fin 16384) : idx_main_v0 (ix1 j) k = ix2 k j :=
  funext fun a => Fin.ext (by match a with | ⟨0, _⟩ => rfl | ⟨1, _⟩ => rfl)
theorem idx_v3 (j : Fin 4096) (k : Fin 16384) : idx_main_v3 (ix1 j) k = ix2 k j :=
  funext fun a => Fin.ext (by match a with | ⟨0, _⟩ => rfl | ⟨1, _⟩ => rfl)
theorem idx_v13 (j : Fin 4096) (k : Fin 16384) : idx_main_v13 (ix1 j) k = ix2 k j :=
  funext fun a => Fin.ext (by match a with | ⟨0, _⟩ => rfl | ⟨1, _⟩ => rfl)
theorem idx_v18 (j : Fin 4096) (k : Fin 16384) : idx_main_v18 (ix1 j) k = ix2 k j :=
  funext fun a => Fin.ext (by match a with | ⟨0, _⟩ => rfl | ⟨1, _⟩ => rfl)
theorem idx_v23 (j : Fin 4096) (k : Fin 16384) : idx_main_v23 (ix1 j) k = ix2 k j :=
  funext fun a => Fin.ext (by match a with | ⟨0, _⟩ => rfl | ⟨1, _⟩ => rfl)
theorem idx_v35 (j : Fin 4096) (k : Fin 16384) : idx_main_v35 (ix1 j) k = ix2 k j :=
  funext fun a => Fin.ext (by match a with | ⟨0, _⟩ => rfl | ⟨1, _⟩ => rfl)
theorem idx_v40 (j : Fin 4096) (k : Fin 16384) : idx_main_v40 (ix1 j) k = ix2 k j :=
  funext fun a => Fin.ext (by match a with | ⟨0, _⟩ => rfl | ⟨1, _⟩ => rfl)
theorem idx_v45 (j : Fin 4096) (k : Fin 16384) : idx_main_v45 (ix1 j) k = ix2 k j :=
  funext fun a => Fin.ext (by match a with | ⟨0, _⟩ => rfl | ⟨1, _⟩ => rfl)
theorem idx_v6_v7 (r : Fin 16384) (j : Fin 4096) : idx_main_v6 (idx_main_v7 (ix2 r j)) = ix1 j :=
  funext fun a => Fin.ext (by match a with | ⟨0, _⟩ => rfl)
theorem idx_v9_v10 (r : Fin 16384) (j : Fin 4096) : idx_main_v9 (idx_main_v10 (ix2 r j)) = ix1 j :=
  funext fun a => Fin.ext (by match a with | ⟨0, _⟩ => rfl)

/-! ## The correlation's stages, column by column (t the second argument, p the first) -/

/-- The first quotient is the mean of t's column. -/
theorem mean_t (t : Arr) (j : Fin 4096) : val_main_v2 (F := Ideal) t (ix1 j) = mean (col t j) := by
  rw [val_main_v2_apply, val_main_v0_apply, val_main_v1_apply, val_main_cst_apply, val_main_cst_0_apply]
  simp only [idx_v0, Ideal.hostDivf_def, Ideal.ofBits_def, Ideal.ofBits_zero_f32, zero_add]
  rfl

/-- The second quotient is the mean of p's column. -/
theorem mean_p (p : Arr) (j : Fin 4096) : val_main_v5 (F := Ideal) p (ix1 j) = mean (col p j) := by
  rw [val_main_v5_apply, val_main_v3_apply, val_main_v4_apply, val_main_cst_1_apply, val_main_cst_2_apply]
  simp only [idx_v3, Ideal.hostDivf_def, Ideal.ofBits_def, Ideal.ofBits_zero_f32, zero_add]
  rfl

/-- t less its column means, at (r, j): the entry less the mean of column j. -/
theorem centred_t (t : Arr) (r : Fin 16384) (j : Fin 4096) :
    val_main_v8 (F := Ideal) t (ix2 r j) = col t j r - mean (col t j) := by
  rw [val_main_v8_apply, val_main_v7_apply, val_main_v6_apply, idx_v6_v7, mean_t]
  rfl

/-- p less its column means, at (r, j). -/
theorem centred_p (p : Arr) (r : Fin 16384) (j : Fin 4096) :
    val_main_v11 (F := Ideal) p (ix2 r j) = col p j r - mean (col p j) := by
  rw [val_main_v11_apply, val_main_v10_apply, val_main_v9_apply, idx_v9_v10, mean_p]
  rfl

/-- The mean of the squared centred entries of t's column is its two-pass variance. -/
theorem var_t (t : Arr) (j : Fin 4096) : val_main_v15 (F := Ideal) t (ix1 j) = varCentred (col t j) := by
  rw [val_main_v15_apply, val_main_v13_apply, val_main_v14_apply, val_main_cst_3_apply, val_main_cst_4_apply]
  simp only [idx_v13, val_main_v12_apply, centred_t, Ideal.hostDivf_def, Ideal.mulf_def, Ideal.ofBits_def,
    Ideal.ofBits_zero_f32, zero_add]
  rfl

/-- Likewise for p's column. -/
theorem var_p (p : Arr) (j : Fin 4096) : val_main_v20 (F := Ideal) p (ix1 j) = varCentred (col p j) := by
  rw [val_main_v20_apply, val_main_v18_apply, val_main_v19_apply, val_main_cst_5_apply, val_main_cst_6_apply]
  simp only [idx_v18, val_main_v17_apply, centred_p, Ideal.hostDivf_def, Ideal.mulf_def, Ideal.ofBits_def,
    Ideal.ofBits_zero_f32, zero_add]
  rfl

/-- The mean of the products of the centred entries, t's factor first, is the two-pass covariance. -/
theorem cov_tp (p t : Arr) (j : Fin 4096) :
    val_main_v25 (F := Ideal) p t (ix1 j) = covCentred (col t j) (col p j) := by
  rw [val_main_v25_apply, val_main_v23_apply, val_main_v24_apply, val_main_cst_7_apply, val_main_cst_8_apply]
  simp only [idx_v23, val_main_v22_apply, centred_t, centred_p, Ideal.hostDivf_def, Ideal.mulf_def, Ideal.ofBits_def,
    Ideal.ofBits_zero_f32, zero_add]
  rfl

/-- The quotient of the covariance by the product of the standard deviations (t's first) is the correlation. -/
theorem corr_at (p t : Arr) (j : Fin 4096) :
    val_main_v27 (F := Ideal) p t (ix1 j) = corrCentred (col p j) (col t j) := by
  rw [val_main_v27_apply, val_main_v26_apply, val_main_v16_apply, val_main_v21_apply, cov_tp, var_t, var_p]
  simp only [Ideal.hostDivf_def, Ideal.mulf_def, Ideal.hostUnary_sqrt_def]
  rfl

/-- The select on "the correlation differs from itself", with the zero word in the first branch, is the guard. -/
theorem guarded_at (p t : Arr) (j : Fin 4096) :
    val_main_v30 (F := Ideal) p t (ix1 j) = guarded (corrCentred (col p j) (col t j)) := by
  rw [val_main_v30_apply, val_main_v28_apply, val_main_v29_apply, val_main_cst_9_apply, corr_at]
  rfl

/-- One minus the mean over the columns of the guarded correlations. -/
theorem corr_term (p t : Arr) (i : S_.Idx) :
    val_main_v33 (F := Ideal) p t i
      = Ideal.ofBits .f32 0x3F800000#32
        - Ideal.div (Ideal.ofBits .f32 0x00000000#32 + ∑ j, guarded (corrCentred (col p j) (col t j)))
            (Ideal.ofBits .f32 0x45800000#32) := by
  rw [val_main_v33_apply, val_main_v32_apply, val_main_v31_apply, val_main_cst_10_apply, val_main_cst_11_apply,
    val_main_cst_12_apply, sum_idx1]
  simp only [guarded_at, Ideal.hostDivf_def, Ideal.subf_def, Ideal.ofBits_def]

/-! ## The cosine's stages -/

/-- The clamped norm of p's column. -/
theorem norm_p (p : Arr) (j : Fin 4096) :
    val_main_v38 (F := Ideal) p (ix1 j)
      = max (Ideal.sqrt (∑ i, col p j i * col p j i)) (Ideal.ofBits .f32 0x322BCC77#32) := by
  rw [val_main_v38_apply, val_main_v36_apply, val_main_v35_apply, val_main_v37_apply, val_main_cst_13_apply,
    val_main_cst_14_apply]
  simp only [idx_v35, val_main_v34_apply, Ideal.maximumf_def, Ideal.mulf_def, Ideal.hostUnary_sqrt_def, Ideal.ofBits_def,
    Ideal.ofBits_zero_f32, zero_add]
  rfl

/-- The clamped norm of t's column. -/
theorem norm_t (t : Arr) (j : Fin 4096) :
    val_main_v43 (F := Ideal) t (ix1 j)
      = max (Ideal.sqrt (∑ i, col t j i * col t j i)) (Ideal.ofBits .f32 0x322BCC77#32) := by
  rw [val_main_v43_apply, val_main_v41_apply, val_main_v40_apply, val_main_v42_apply, val_main_cst_15_apply,
    val_main_cst_16_apply]
  simp only [idx_v40, val_main_v39_apply, Ideal.maximumf_def, Ideal.mulf_def, Ideal.hostUnary_sqrt_def, Ideal.ofBits_def,
    Ideal.ofBits_zero_f32, zero_add]
  rfl

/-- The quotient of the columns' inner product by the product of the clamped norms is the cosine. -/
theorem cos_at (p t : Arr) (j : Fin 4096) :
    val_main_v47 (F := Ideal) p t (ix1 j) = cosine (col p j) (col t j) := by
  rw [val_main_v47_apply, val_main_v46_apply, val_main_v45_apply, val_main_cst_17_apply, norm_p, norm_t]
  simp only [idx_v45, val_main_v44_apply, Ideal.hostDivf_def, Ideal.mulf_def, Ideal.ofBits_def, Ideal.ofBits_zero_f32,
    zero_add]
  rfl

/-- One minus the mean over the columns of the cosines. -/
theorem cos_term (p t : Arr) (i : S_.Idx) :
    val_main_v50 (F := Ideal) p t i
      = Ideal.ofBits .f32 0x3F800000#32
        - Ideal.div (Ideal.ofBits .f32 0x00000000#32 + ∑ j, cosine (col p j) (col t j))
            (Ideal.ofBits .f32 0x45800000#32) := by
  rw [val_main_v50_apply, val_main_v49_apply, val_main_v48_apply, val_main_cst_18_apply, val_main_cst_19_apply,
    val_main_cst_20_apply, sum_idx1]
  simp only [cos_at, Ideal.hostDivf_def, Ideal.subf_def, Ideal.ofBits_def]

/-! ## The result -/

/-- The reference's last stage, at its one index, is the centred loss of its two arguments. -/
theorem value (p t : Arr) (i : S_.Idx) : val_main_v51 (F := Ideal) p t i = lossCentred p t := by
  rw [val_main_v51_apply, corr_term, cos_term]
  rfl

/-- The reference's run ends with its scalar result holding the specification's centred loss of the two argument
    arrays, and with both argument arrays unchanged: the run's own statement, with the result's term read as above. -/
theorem run_spec (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v51)
          = (fun _ => Cert.Spec.lossCentred (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans ((val_main_v51_eq (F := Ideal) m c).trans (funext fun i => value _ _ i)), (h c).2⟩)
    (Cert.ReferenceIdeal.Value.run (F := Ideal) m ρ)

end Cert.ReferenceIdeal.RefValue

end
-- ==== Proof.FiniteInputs.lean ====
/-
  From the precondition to real entries.

  The precondition says of each input array that every entry's absolute value lies strictly below +∞: a conjunction of
  two "for all entries" tests. Over the extended reals |x| = max x (−x), and |x| < ⊤ fails exactly at x = ⊤ and at
  x = ⊥, so every entry of both arrays is a real number.
-/
import proofs.«175954_j27161373180458_1_alg».proof.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.ValueIdx Cert.Pre_finite_inputs

/-- The rank-0 shape has one index. -/
instance : Subsingleton S_.Idx := ⟨fun a b => funext fun d => d.elim0⟩

/-- The f32 word of +∞ denotes the top of the extended reals. -/
theorem ofBits_inf : Ideal.ofBits .f32 0x7F800000#32 = ⊤ := by simp [Ideal.ofBits, Ideal.ieee]

/-- An extended real whose absolute value is strictly below ⊤ is a real number. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- Under the precondition every entry of both arrays is a real number. -/
theorem real_of_pre [Facts] (p t : FVec Ideal S16384x4096 .f32) (h : fn (F := Ideal) p t = fun _ => 1#1) :
    (∀ i, ∃ r : ℝ, p i = (r : EReal)) ∧ (∀ i, ∃ r : ℝ, t i = (r : EReal)) := by
  have h0 := congrFun h ix0
  dsimp only [fn] at h0
  obtain ⟨h1, h2⟩ := IntOp.andi_eq_one.1 h0
  refine ⟨fun i => ?_, fun i => ?_⟩
  · have e := Host.reduce_andi_all _ _ _ _ _ h1 i
    refine real_of_abs_lt_top _ ?_
    rw [← ofBits_inf]
    exact e
  · have e := Host.reduce_andi_all _ _ _ _ _ h2 i
    refine real_of_abs_lt_top _ ?_
    rw [← ofBits_inf]
    exact e

end Cert.FiniteInputs

end
-- ==== Proof.lean ====
/-
  A one-pass Pearson-and-cosine loss against its two-pass reference, over the extended reals.

  From two arrays p, t of 16384 rows and 4096 columns the reference computes, per column, the population Pearson
  correlation from CENTRED entries (mean; deviations; mean of squared deviations; mean of products of deviations) and the
  cosine similarity with each norm clamped below, and returns (1 − mean correlation) + (1 − mean cosine). The kernel
  streams the rows once: a grid of 8 column blocks × 16 row blocks accumulates, per column, the five sums ∑p, ∑t, ∑p², ∑t²,
  ∑p·t in scratch rows that are reset at the first row block and written out at the last; the lines after the region form
  mean, variance = ∑x²/N − mean² clamped at zero, covariance = ∑xy/N − mean·mean, and the same correlation, cosine and loss.

  Over the extended reals a sum may be taken in any order and grouping, so the kernel's block-by-block accumulation is the
  sum over all rows (Fold, KernelValue). The two forms of variance and covariance agree when the entries are real numbers
  — the identity expands a product, which needs distributivity — and the precondition says every entry is finite
  (FiniteInputs, Moments). The variance is then a mean of squares, so the clamp at zero is idle; the product of the two
  standard deviations is taken in opposite orders by the two programs. Both results are Spec's loss, in its centred form
  for the reference (RefValue) and in its raw-moment form for the kernel (KernelTail, KernelValue).

  The ideal pass rewrote nothing, so the preservation claim is trivial. The frames of the two kernel programs are the runs
  of FrameKernel and FrameKernelIdeal; the reference's frame is its run with the result dropped.
-/
import proofs.«175954_j27161373180458_1_alg».proof.Defs
import proofs.«175954_j27161373180458_1_alg».proof.Proof.Gen.Kernel
import proofs.«175954_j27161373180458_1_alg».proof.Proof.Gen.KernelIdeal
import proofs.«175954_j27161373180458_1_alg».proof.Proof.Gen.ReferenceIdeal
import proofs.«175954_j27161373180458_1_alg».proof.Proof.Gen.Pre_finite_inputs
import proofs.«175954_j27161373180458_1_alg».proof.Proof.FrameKernel
import proofs.«175954_j27161373180458_1_alg».proof.Proof.FrameKernelIdeal
import proofs.«175954_j27161373180458_1_alg».proof.Proof.KernelValue
import proofs.«175954_j27161373180458_1_alg».proof.Proof.RefValue
import proofs.«175954_j27161373180458_1_alg».proof.Proof.FiniteInputs
import proofs.«175954_j27161373180458_1_alg».proof.Proof.Spec
import Idealize.ShloMosaic.Adequacy
import Idealize.ShloMosaic.Init

noncomputable section

namespace Cert.Proof

open Idealize.ShloMosaic Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference's frame: its run, the result dropped. -/
theorem frame_reference : Cert.frame_ReferenceIdeal := fun m ρ _ =>
  (θ_run Cert.ReferenceIdeal.defs _ _).mono (fun _ h c => (h c).2) (Cert.ReferenceIdeal.RefValue.run_spec m ρ)

theorem preserves : Cert.preserves_Kernel_KernelIdeal := trivial

/-- From memories that agree on finite arguments the kernel ends at the raw-moment loss and the reference at the
    centred loss of the same two arrays: one number. -/
theorem algebraic : Cert.algebraic_KernelIdeal_ReferenceIdeal := by
  intro m ρ m' ρ' hpre hagree
  refine ⟨fun c => (fun _ => Cert.Spec.lossMoments
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.Sums.run_value m ρ, ?_⟩
  refine (θ_run Cert.ReferenceIdeal.defs _ _).mono (fun _ h c => ⟨(h c).1.trans ?_, (h c).2⟩)
    (Cert.ReferenceIdeal.RefValue.run_spec m' ρ')
  obtain ⟨hp, ht⟩ := Cert.FiniteInputs.real_of_pre _ _ (hpre c)
  rw [(hagree c).1, (hagree c).2]
  exact funext fun _ => Cert.Spec.lossCentred_eq_lossMoments _ _ hp ht

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
